-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x1024 : Shape := ⟨3, ![16, 4096, 1024]⟩
abbrev S1024x1024 : Shape := ⟨2, ![1024, 1024]⟩
abbrev S1024 : Shape := ⟨1, ![1024]⟩
abbrev S16x1024 : Shape := ⟨2, ![16, 1024]⟩
abbrev S1024x16 : Shape := ⟨2, ![1024, 16]⟩
abbrev S4x16x1024 : Shape := ⟨3, ![4, 16, 1024]⟩
abbrev S4x1024x16 : Shape := ⟨3, ![4, 1024, 16]⟩
abbrev S16 : Shape := ⟨1, ![16]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S16x1024 : S_.BroadcastsInDim S16x1024 (![] : Fin 0 → Fin S16x1024.rank)
  reducesTo_S16x1024_S_d0_1 : S16x1024.ReducesTo [0, 1] S_
  bcast_S_S1024x16 : S_.BroadcastsInDim S1024x16 (![] : Fin 0 → Fin S1024x16.rank)
  reducesTo_S1024x16_S_d0_1 : S1024x16.ReducesTo [0, 1] S_
  bcast_S_S4x16x1024 : S_.BroadcastsInDim S4x16x1024 (![] : Fin 0 → Fin S4x16x1024.rank)
  reducesTo_S4x16x1024_S_d0_1_2 : S4x16x1024.ReducesTo [0, 1, 2] S_
  bcast_S_S4x1024x16 : S_.BroadcastsInDim S4x1024x16 (![] : Fin 0 → Fin S4x1024x16.rank)
  reducesTo_S4x1024x16_S_d0_1_2 : S4x1024x16.ReducesTo [0, 1, 2] S_
  bcast_S_S16 : S_.BroadcastsInDim S16 (![] : Fin 0 → Fin S16.rank)
  reducesTo_S16_S_d0 : S16.ReducesTo [0] S_

variable [Facts]

def fn_part3 {F : FTy → Type} [FloatOps F] (main_v47 : IVec S_ 1) (main_v49 : IVec S16 1) (main_c_19 : IVec S_ 1) : IVec S_ 1 :=
  let main_v50 : IVec S_ 1 := (fun x v => Host.reduce IntOp.andi x v reducesTo_S16_S_d0 h_S_) main_v49 main_c_19
  let main_v51 : IVec S_ 1 := andi main_v47 main_v50
  main_v51

def fn_part2 {F : FTy → Type} [FloatOps F] (main_arg7 : FVec F S16x1024 .f32) (main_arg8 : FVec F S1024x16 .f32) (main_arg9 : IVec S16 32) (main_v33 : IVec S_ 1) : IVec S_ 1 :=
  let main_v34 : FVec F S16x1024 .f32 := Host.absf main_arg7
  let main_cst_12 : FVec F S_ .f32 := constant S_ .f32 0x7F800000#32
  let main_v35 : FVec F S16x1024 .f32 := broadcastInDim S16x1024 ![] bcast_S_S16x1024 main_cst_12
  let main_v36 : IVec S16x1024 1 := cmpf .olt main_v34 main_v35
  let main_c_13 : IVec S_ 1 := constantI S_ 1 1#1
  let main_v37 : IVec S_ 1 := (fun x v => Host.reduce IntOp.andi x v reducesTo_S16x1024_S_d0_1 h_S_) main_v36 main_c_13
  let main_v38 : IVec S_ 1 := andi main_v33 main_v37
  let main_v39 : FVec F S1024x16 .f32 := Host.absf main_arg8
  let main_cst_14 : FVec F S_ .f32 := constant S_ .f32 0x7F800000#32
  let main_v40 : FVec F S1024x16 .f32 := broadcastInDim S1024x16 ![] bcast_S_S1024x16 main_cst_14
  let main_v41 : IVec S1024x16 1 := cmpf .olt main_v39 main_v40
  let main_c_15 : IVec S_ 1 := constantI S_ 1 1#1
  let main_v42 : IVec S_ 1 := (fun x v => Host.reduce IntOp.andi x v reducesTo_S1024x16_S_d0_1 h_S_) main_v41 main_c_15
  let main_v43 : IVec S_ 1 := andi main_v38 main_v42
  let main_c_16 : IVec S_ 32 := constantI S_ 32 0#32
  let main_v44 : IVec S16 32 := broadcastInDim S16 ![] bcast_S_S16 main_c_16
  let main_v45 : IVec S16 1 := cmpi .sge main_arg9 main_v44
  let main_c_17 : IVec S_ 1 := constantI S_ 1 1#1
  let main_v46 : IVec S_ 1 := (fun x v => Host.reduce IntOp.andi x v reducesTo_S16_S_d0 h_S_) main_v45 main_c_17
  let main_v47 : IVec S_ 1 := andi main_v43 main_v46
  let main_c_18 : IVec S_ 32 := constantI S_ 32 4#32
  let main_v48 : IVec S16 32 := broadcastInDim S16 ![] bcast_S_S16 main_c_18
  let main_v49 : IVec S16 1 := cmpi .slt main_arg9 main_v48
  let main_c_19 : IVec S_ 1 := constantI S_ 1 1#1
  fn_part3 (F := F) main_v47 main_v49 main_c_19

def fn_part1 {F : FTy → Type} [FloatOps F] (main_arg4 : FVec F S1024x16 .f32) (main_arg5 : FVec F S4x16x1024 .f32) (main_arg6 : FVec F S4x1024x16 .f32) (main_arg7 : FVec F S16x1024 .f32) (main_arg8 : FVec F S1024x16 .f32) (main_arg9 : IVec S16 32) (main_v13 : IVec S_ 1) (main_v16 : IVec S16x1024 1) : IVec S_ 1 :=
  let main_c_5 : IVec S_ 1 := constantI S_ 1 1#1
  let main_v17 : IVec S_ 1 := (fun x v => Host.reduce IntOp.andi x v reducesTo_S16x1024_S_d0_1 h_S_) main_v16 main_c_5
  let main_v18 : IVec S_ 1 := andi main_v13 main_v17
  let main_v19 : FVec F S1024x16 .f32 := Host.absf main_arg4
  let main_cst_6 : FVec F S_ .f32 := constant S_ .f32 0x7F800000#32
  let main_v20 : FVec F S1024x16 .f32 := broadcastInDim S1024x16 ![] bcast_S_S1024x16 main_cst_6
  let main_v21 : IVec S1024x16 1 := cmpf .olt main_v19 main_v20
  let main_c_7 : IVec S_ 1 := constantI S_ 1 1#1
  let main_v22 : IVec S_ 1 := (fun x v => Host.reduce IntOp.andi x v reducesTo_S1024x16_S_d0_1 h_S_) main_v21 main_c_7
  let main_v23 : IVec S_ 1 := andi main_v18 main_v22
  let main_v24 : FVec F S4x16x1024 .f32 := Host.absf main_arg5
  let main_cst_8 : FVec F S_ .f32 := constant S_ .f32 0x7F800000#32
  let main_v25 : FVec F S4x16x1024 .f32 := broadcastInDim S4x16x1024 ![] bcast_S_S4x16x1024 main_cst_8
  let main_v26 : IVec S4x16x1024 1 := cmpf .olt main_v24 main_v25
  let main_c_9 : IVec S_ 1 := constantI S_ 1 1#1
  let main_v27 : IVec S_ 1 := (fun x v => Host.reduce IntOp.andi x v reducesTo_S4x16x1024_S_d0_1_2 h_S_) main_v26 main_c_9
  let main_v28 : IVec S_ 1 := andi main_v23 main_v27
  let main_v29 : FVec F S4x1024x16 .f32 := Host.absf main_arg6
  let main_cst_10 : FVec F S_ .f32 := constant S_ .f32 0x7F800000#32
  let main_v30 : FVec F S4x1024x16 .f32 := broadcastInDim S4x1024x16 ![] bcast_S_S4x1024x16 main_cst_10
  let main_v31 : IVec S4x1024x16 1 := cmpf .olt main_v29 main_v30
  let main_c_11 : IVec S_ 1 := constantI S_ 1 1#1
  let main_v32 : IVec S_ 1 := (fun x v => Host.reduce IntOp.andi x v reducesTo_S4x1024x16_S_d0_1_2 h_S_) main_v31 main_c_11
  let main_v33 : IVec S_ 1 := andi main_v28 main_v32
  fn_part2 (F := F) main_arg7 main_arg8 main_arg9 main_v33

def fn {F : FTy → Type} [FloatOps F] (main_arg0 : FVec F S16x4096x1024 .f32) (main_arg1 : FVec F S1024x1024 .f32) (main_arg2 : FVec F S1024 .f32) (main_arg3 : FVec F S16x1024 .f32) (main_arg4 : FVec F S1024x16 .f32) (main_arg5 : FVec F S4x16x1024 .f32) (main_arg6 : FVec F S4x1024x16 .f32) (main_arg7 : FVec F S16x1024 .f32) (main_arg8 : FVec F S1024x16 .f32) (main_arg9 : IVec S16 32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S16x1024 .f32 := Host.absf main_arg3
  let main_cst_4 : FVec F S_ .f32 := constant S_ .f32 0x7F800000#32
  let main_v15 : FVec F S16x1024 .f32 := broadcastInDim S16x1024 ![] bcast_S_S16x1024 main_cst_4
  let main_v16 : IVec S16x1024 1 := cmpf .olt main_v14 main_v15
  fn_part1 (F := F) main_arg4 main_arg5 main_arg6 main_arg7 main_arg8 main_arg9 main_v13 main_v16
-- ==== Kernel.lean ====
abbrev S16x4096x1024 : Shape := ⟨3, ![16, 4096, 1024]⟩
abbrev S1024x1024 : Shape := ⟨2, ![1024, 1024]⟩
abbrev S1024 : Shape := ⟨1, ![1024]⟩
abbrev S16x1024 : Shape := ⟨2, ![16, 1024]⟩
abbrev S1024x16 : Shape := ⟨2, ![1024, 16]⟩
abbrev S4x16x1024 : Shape := ⟨3, ![4, 16, 1024]⟩
abbrev S4x1024x16 : Shape := ⟨3, ![4, 1024, 16]⟩
abbrev S16 : Shape := ⟨1, ![16]⟩
abbrev S1x1024 : Shape := ⟨2, ![1, 1024]⟩
abbrev S1x512x1024 : Shape := ⟨3, ![1, 512, 1024]⟩
abbrev S1x1024x16 : Shape := ⟨3, ![1, 1024, 16]⟩
abbrev S1 : Shape := ⟨1, ![1]⟩
abbrev S1x16x1024 : Shape := ⟨3, ![1, 16, 1024]⟩
abbrev S512x1024 : Shape := ⟨2, ![512, 1024]⟩
abbrev S512x16 : Shape := ⟨2, ![512, 16]⟩

abbrev nBuf : Space → Nat
  | .hbm => 25
  | .vmem => 14
  | .smem => 1
  | _ => 0

abbrev bufTy : (tb : Table) → Fin (tcTables nBuf tb) → BufTy
  | .hbm, ⟨0, _⟩ => ⟨S16x4096x1024, .f32⟩
  | .hbm, ⟨1, _⟩ => ⟨S1024x1024, .f32⟩
  | .hbm, ⟨2, _⟩ => ⟨S1024, .f32⟩
  | .hbm, ⟨3, _⟩ => ⟨S16x1024, .f32⟩
  | .hbm, ⟨4, _⟩ => ⟨S1024x16, .f32⟩
  | .hbm, ⟨5, _⟩ => ⟨S4x16x1024, .f32⟩
  | .hbm, ⟨6, _⟩ => ⟨S4x1024x16, .f32⟩
  | .hbm, ⟨7, _⟩ => ⟨S16x1024, .f32⟩
  | .hbm, ⟨8, _⟩ => ⟨S1024x16, .f32⟩
  | .hbm, ⟨9, _⟩ => ⟨S1024x1024, .f32⟩
  | .hbm, ⟨10, _⟩ => ⟨S1024x1024, .bf16⟩
  | .hbm, ⟨11, _⟩ => ⟨S1x1024, .f32⟩
  | .hbm, ⟨12, _⟩ => ⟨S1024x16, .f32⟩
  | .hbm, ⟨13, _⟩ => ⟨S1024x16, .bf16⟩
  | .hbm, ⟨14, _⟩ => ⟨S16x1024, .f32⟩
  | .hbm, ⟨15, _⟩ => ⟨S16x1024, .bf16⟩
  | .hbm, ⟨16, _⟩ => ⟨S4x1024x16, .f32⟩
  | .hbm, ⟨17, _⟩ => ⟨S4x1024x16, .bf16⟩
  | .hbm, ⟨18, _⟩ => ⟨S4x16x1024, .f32⟩
  | .hbm, ⟨19, _⟩ => ⟨S4x16x1024, .bf16⟩
  | .hbm, ⟨20, _⟩ => ⟨S1024x16, .f32⟩
  | .hbm, ⟨21, _⟩ => ⟨S1024x16, .bf16⟩
  | .hbm, ⟨22, _⟩ => ⟨S16x1024, .f32⟩
  | .hbm, ⟨23, _⟩ => ⟨S16x1024, .bf16⟩
  | .hbm, ⟨24, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1x1024, .f32⟩
  | .local _ .vmem, ⟨4, _⟩ => ⟨S1024x16, .bf16⟩
  | .local _ .vmem, ⟨5, _⟩ => ⟨S16x1024, .bf16⟩
  | .local _ .vmem, ⟨6, _⟩ => ⟨S1x1024x16, .bf16⟩
  | .local _ .vmem, ⟨7, _⟩ => ⟨S1x1024x16, .bf16⟩
  | .local _ .vmem, ⟨8, _⟩ => ⟨S1x16x1024, .bf16⟩
  | .local _ .vmem, ⟨9, _⟩ => ⟨S1x16x1024, .bf16⟩
  | .local _ .vmem, ⟨10, _⟩ => ⟨S1024x16, .bf16⟩
  | .local _ .vmem, ⟨11, _⟩ => ⟨S16x1024, .bf16⟩
  | .local _ .vmem, ⟨12, _⟩ => ⟨S1x512x1024, .f32⟩
  | .local _ .vmem, ⟨13, _⟩ => ⟨S1x512x1024, .f32⟩
  | .local _ .smem, ⟨0, _⟩ => ⟨S16, .i32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_arg9 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![16, 8], ![false, false]⟩

abbrev pre0 : Pipeline.Prefetch sig := ⟨1, ![main_arg9.idx], fun | 0 => main_arg9.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x16 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x16 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S16x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  transposes_S16x1024_S1024x16_1_0 : S16x1024.Transposes [1, 0] S1024x16
  transposes_S1024x16_S16x1024_1_0 : S1024x16.Transposes [1, 0] S16x1024
  transposes_S4x16x1024_S4x1024x16_0_2_1 : S4x16x1024.Transposes [0, 2, 1] S4x1024x16
  transposes_S4x1024x16_S4x16x1024_0_2_1 : S4x1024x16.Transposes [0, 2, 1] S4x16x1024
  numel1_S1 : S1.numel = 1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S1x1024x16_S1x1024x16_0_0_0 : ∀ a, (![0, 0, 0] : Fin 3 → Nat) a + S1x1024x16.size a ≤ S1x1024x16.size a
  h_S1x1024x16 : 0 < S1x1024x16.numel
  shapeCasts_S1x1024x16_S1024x16 : S1x1024x16.ShapeCasts S1024x16
  inb_S1x16x1024_S1x16x1024_0_0_0 : ∀ a, (![0, 0, 0] : Fin 3 → Nat) a + S1x16x1024.size a ≤ S1x16x1024.size a
  h_S1x16x1024 : 0 < S1x16x1024.numel
  shapeCasts_S1x16x1024_S16x1024 : S1x16x1024.ShapeCasts S16x1024
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  dot_S512x1024_S1024x16_S512x16_1_0_0_1_n_n_wf : DotDims.WF S512x1024 S1024x16 S512x16 [1] [0] [0] [1] [] []
  dot_S512x16_S16x1024_S512x1024_1_0_0_1_n_n_wf : DotDims.WF S512x16 S16x1024 S512x1024 [1] [0] [0] [1] [] []
  hrank0 : 0 < grid0.rank
  k0_off1_inb : ∀ i : grid0.Coords, ∀ a, (k0_off1 i) a + S1.size a ≤ S16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S16x4096x1024.size a
  hwx0_0 : ∀ i : grid0.Coords, EltTy.bits .f32 = 32 ∨ (Rect.block (s := S16x4096x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S1024x16.size a
  hwx0_3 : ∀ i : grid0.Coords, EltTy.bits .bf16 = 32 ∨ (Rect.block (s := S1024x16) S1024x16.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1024.size a ≤ S16x1024.size a
  hwx0_4 : ∀ i : grid0.Coords, EltTy.bits .bf16 = 32 ∨ (Rect.block (s := S16x1024) S16x1024.size (cc0_transform_4 i) (hinb0_4 i)).WholeWords (EltTy.packing .bf16)
  hstage0_5 : ∀ j, (stage0_5 j).IsWhole
  nbuf0_5 : grid0.bufCount reads0_5 false = 2
  hreads0_5 : ∀ {F : FTy → Type} [FloatOps F] (pf : pre0.Contents (Elt F)) (i i' : grid0.Coords), (∀ a, reads0_5 a = true → i a = i' a) → cc0_transform_5 k0_off1_inb numel1_S1 pf i = cc0_transform_5 k0_off1_inb numel1_S1 pf i'
  hstage0_6 : ∀ j, (stage0_6 j).IsWhole
  nbuf0_6 : grid0.bufCount reads0_6 false = 2
  hreads0_6 : ∀ {F : FTy → Type} [FloatOps F] (pf : pre0.Contents (Elt F)) (i i' : grid0.Coords), (∀ a, reads0_6 a = true → i a = i' a) → cc0_transform_6 k0_off1_inb numel1_S1 pf i = cc0_transform_6 k0_off1_inb numel1_S1 pf i'
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x16.size a ≤ S1024x16.size a
  hwx0_7 : ∀ i : grid0.Coords, EltTy.bits .bf16 = 32 ∨ (Rect.block (s := S1024x16) S1024x16.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16x1024.size a ≤ S16x1024.size a
  hwx0_8 : ∀ i : grid0.Coords, EltTy.bits .bf16 = 32 ∨ (Rect.block (s := S16x1024) S16x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x1024.size a ≤ S16x4096x1024.size a
  hwx0_9 : ∀ i : grid0.Coords, EltTy.bits .f32 = 32 ∨ (Rect.block (s := S16x4096x1024) S1x512x1024.size (cc0_transform_9 i) (hinb0_9 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x16_S512x16_1_0_0_1_n_n : DotDims S512x1024 S1024x16 S512x16 where
  lhsContracting := [1]
  rhsContracting := [0]
  lhsNonContracting := [0]
  rhsNonContracting := [1]
  lhsBatch := []
  rhsBatch := []
  wf := dot_S512x1024_S1024x16_S512x16_1_0_0_1_n_n_wf
def dot_S512x16_S16x1024_S512x1024_1_0_0_1_n_n : DotDims S512x16 S16x1024 S512x1024 where
  lhsContracting := [1]
  rhsContracting := [0]
  lhsNonContracting := [0]
  rhsNonContracting := [1]
  lhsBatch := []
  rhsBatch := []
  wf := dot_S512x16_S16x1024_S512x1024_1_0_0_1_n_n_wf

abbrev spec0_0 : Pipeline.WinSpec sig grid0.rank :=
  Pipeline.WinSpec.ofSpec (Memref.whole main_arg0) S1x512x1024.size reads0_0 false false 2 stage0_0 sem0_0 nbuf0_0 hstage0_0

abbrev spec0_1 : Pipeline.WinSpec sig grid0.rank :=
  Pipeline.WinSpec.ofSpec (Memref.whole main_v1) S1024x1024.size reads0_1 false true 1 stage0_1 sem0_1 nbuf0_1 hstage0_1

abbrev spec0_2 : Pipeline.WinSpec sig grid0.rank :=
  Pipeline.WinSpec.ofSpec (Memref.whole main_v2) S1x1024.size reads0_2 false true 1 stage0_2 sem0_2 nbuf0_2 hstage0_2

abbrev spec0_3 : Pipeline.WinSpec sig grid0.rank :=
  Pipeline.WinSpec.ofSpec (Memref.whole main_v4) S1024x16.size reads0_3 false true 1 stage0_3 sem0_3 nbuf0_3 hstage0_3

abbrev spec0_4 : Pipeline.WinSpec sig grid0.rank :=
  Pipeline.WinSpec.ofSpec (Memref.whole main_v6) S16x1024.size reads0_4 false true 1 stage0_4 sem0_4 nbuf0_4 hstage0_4

abbrev spec0_5 : Pipeline.WinSpec sig grid0.rank :=
  Pipeline.WinSpec.ofSpec (Memref.whole main_v8) S1x1024x16.size reads0_5 false false 2 stage0_5 sem0_5 nbuf0_5 hstage0_5

abbrev spec0_6 : Pipeline.WinSpec sig grid0.rank :=
  Pipeline.WinSpec.ofSpec (Memref.whole main_v10) S1x16x1024.size reads0_6 false false 2 stage0_6 sem0_6 nbuf0_6 hstage0_6

abbrev spec0_7 : Pipeline.WinSpec sig grid0.rank :=
  Pipeline.WinSpec.ofSpec (Memref.whole main_v12) S1024x16.size reads0_7 false true 1 stage0_7 sem0_7 nbuf0_7 hstage0_7

abbrev spec0_8 : Pipeline.WinSpec sig grid0.rank :=
  Pipeline.WinSpec.ofSpec (Memref.whole main_v14) S16x1024.size reads0_8 false true 1 stage0_8 sem0_8 nbuf0_8 hstage0_8

abbrev spec0_9 : Pipeline.WinSpec sig grid0.rank :=
  Pipeline.WinSpec.ofSpec (Memref.whole main_v15) S1x512x1024.size reads0_9 true false 2 stage0_9 sem0_9 nbuf0_9 hstage0_9

abbrev spec0 : Fin 10 → Pipeline.WinSpec sig grid0.rank := fun | 0 => spec0_0 | 1 => spec0_1 | 2 => spec0_2 | 3 => spec0_3 | 4 => spec0_4 | 5 => spec0_5 | 6 => spec0_6 | 7 => spec0_7 | 8 => spec0_8 | 9 => spec0_9 | ⟨_ + 10, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | 8 => nbuf0_8 | 9 => nbuf0_9 | ⟨_ + 10, h⟩ => absurd h (Nat.not_lt.2 (Nat.le_add_left _ _))
abbrev ix0 (pf : pre0.Contents (Elt F)) : (w : Fin 10) → grid0.Coords → Fin (spec0 w).shape.rank → Nat := fun | 0 => cc0_transform_0 | 1 => cc0_transform_1 | 2 => cc0_transform_2 | 3 => cc0_transform_3 | 4 => cc0_transform_4 | 5 => cc0_transform_5 k0_off1_inb numel1_S1 pf | 6 => cc0_transform_6 k0_off1_inb numel1_S1 pf | 7 => cc0_transform_7 | 8 => cc0_transform_8 | 9 => cc0_transform_9 | ⟨_ + 10, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 pf | 6 => hreads0_6 pf | 7 => hreads0_7 | 8 => hreads0_8 | 9 => hreads0_9 | ⟨_ + 10, h⟩ => absurd h (Nat.not_lt.2 (Nat.le_add_left _ _))
def ok0 (pf : pre0.Contents (Elt F)) : Prop :=
  (∀ i : grid0.Coords, ∃ h : (∀ a, (cc0_transform_5 k0_off1_inb numel1_S1 pf i a + 1) * S1x1024x16.size a ≤ S4x1024x16.size a), EltTy.bits .bf16 = 32 ∨ (Rect.block (s := S4x1024x16) S1x1024x16.size (cc0_transform_5 k0_off1_inb numel1_S1 pf i) h).WholeWords (EltTy.packing .bf16)) ∧
  (∀ i : grid0.Coords, ∃ h : (∀ a, (cc0_transform_6 k0_off1_inb numel1_S1 pf i a + 1) * S1x16x1024.size a ≤ S4x16x1024.size a), EltTy.bits .bf16 = 32 ∨ (Rect.block (s := S4x16x1024) S1x16x1024.size (cc0_transform_6 k0_off1_inb numel1_S1 pf i) h).WholeWords (EltTy.packing .bf16))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => hinb0_1 | 2 => hinb0_2 | 3 => hinb0_3 | 4 => hinb0_4 | 5 => fun i a => (hok.1 i).elim fun h _ => h a | 6 => fun i a => (hok.2 i).elim fun h _ => h a | 7 => hinb0_7 | 8 => hinb0_8 | 9 => hinb0_9 | ⟨_ + 10, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => hwx0_1 | 2 => hwx0_2 | 3 => hwx0_3 | 4 => hwx0_4 | 5 => fun i => (hok.1 i).elim fun _ h => h | 6 => fun i => (hok.2 i).elim fun _ h => h | 7 => hwx0_7 | 8 => hwx0_8 | 9 => hwx0_9 | ⟨_ + 10, h⟩ => absurd h (Nat.not_lt.2 (Nat.le_add_left _ _))

class Facts : Prop extends Facts₀ where
  harr0 : ∀ w, (spec0 w).arr.IsWhole

variable [Facts]
-- ==== ReferenceIdeal.lean ====
abbrev S16x4096x1024 : Shape := ⟨3, ![16, 4096, 1024]⟩
abbrev S1024x1024 : Shape := ⟨2, ![1024, 1024]⟩
abbrev S1024 : Shape := ⟨1, ![1024]⟩
abbrev S16x1024 : Shape := ⟨2, ![16, 1024]⟩
abbrev S1024x16 : Shape := ⟨2, ![1024, 16]⟩
abbrev S4x16x1024 : Shape := ⟨3, ![4, 16, 1024]⟩
abbrev S4x1024x16 : Shape := ⟨3, ![4, 1024, 16]⟩
abbrev S16 : Shape := ⟨1, ![16]⟩
abbrev S1x1x1024 : Shape := ⟨3, ![1, 1, 1024]⟩
abbrev S16x4096x16 : Shape := ⟨3, ![16, 4096, 16]⟩
abbrev S_ : Shape := ⟨0, ![]⟩
abbrev S16x1 : Shape := ⟨2, ![16, 1]⟩
abbrev S16x16x1024 : Shape := ⟨3, ![16, 16, 1024]⟩
abbrev S16x1024x16 : Shape := ⟨3, ![16, 1024, 16]⟩

abbrev nBuf : Space → Nat
  | .hbm => 42
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024x1024, .f32⟩
  | .hbm, ⟨2, _⟩ => ⟨S1024, .f32⟩
  | .hbm, ⟨3, _⟩ => ⟨S16x1024, .f32⟩
  | .hbm, ⟨4, _⟩ => ⟨S1024x16, .f32⟩
  | .hbm, ⟨5, _⟩ => ⟨S4x16x1024, .f32⟩
  | .hbm, ⟨6, _⟩ => ⟨S4x1024x16, .f32⟩
  | .hbm, ⟨7, _⟩ => ⟨S16x1024, .f32⟩
  | .hbm, ⟨8, _⟩ => ⟨S1024x16, .f32⟩
  | .hbm, ⟨9, _⟩ => ⟨S16, .i32⟩
  | .hbm, ⟨10, _⟩ => ⟨S16x4096x1024, .f32⟩
  | .hbm, ⟨11, _⟩ => ⟨S1x1x1024, .f32⟩
  | .hbm, ⟨12, _⟩ => ⟨S16x4096x1024, .f32⟩
  | .hbm, ⟨13, _⟩ => ⟨S16x4096x1024, .f32⟩
  | .hbm, ⟨14, _⟩ => ⟨S16x4096x16, .f32⟩
  | .hbm, ⟨15, _⟩ => ⟨S16x4096x1024, .f32⟩
  | .hbm, ⟨16, _⟩ => ⟨S_, .i32⟩
  | .hbm, ⟨17, _⟩ => ⟨S16, .i32⟩
  | .hbm, ⟨18, _⟩ => ⟨S16, .i1⟩
  | .hbm, ⟨19, _⟩ => ⟨S_, .i32⟩
  | .hbm, ⟨20, _⟩ => ⟨S16, .i32⟩
  | .hbm, ⟨21, _⟩ => ⟨S16, .i32⟩
  | .hbm, ⟨22, _⟩ => ⟨S16, .i32⟩
  | .hbm, ⟨23, _⟩ => ⟨S16x1, .i32⟩
  | .hbm, ⟨24, _⟩ => ⟨S16x16x1024, .f32⟩
  | .hbm, ⟨25, _⟩ => ⟨S_, .i32⟩
  | .hbm, ⟨26, _⟩ => ⟨S16, .i32⟩
  | .hbm, ⟨27, _⟩ => ⟨S16, .i1⟩
  | .hbm, ⟨28, _⟩ => ⟨S_, .i32⟩
  | .hbm, ⟨29, _⟩ => ⟨S16, .i32⟩
  | .hbm, ⟨30, _⟩ => ⟨S16, .i32⟩
  | .hbm, ⟨31, _⟩ => ⟨S16, .i32⟩
  | .hbm, ⟨32, _⟩ => ⟨S16x1, .i32⟩
  | .hbm, ⟨33, _⟩ => ⟨S16x1024x16, .f32⟩
  | .hbm, ⟨34, _⟩ => ⟨S16x4096x16, .f32⟩
  | .hbm, ⟨35, _⟩ => ⟨S16x4096x1024, .f32⟩
  | .hbm, ⟨36, _⟩ => ⟨S16x4096x16, .f32⟩
  | .hbm, ⟨37, _⟩ => ⟨S16x4096x1024, .f32⟩
  | .hbm, ⟨38, _⟩ => ⟨S_, .f32⟩
  | .hbm, ⟨39, _⟩ => ⟨S16x4096x1024, .f32⟩
  | .hbm, ⟨40, _⟩ => ⟨S16x4096x1024, .f32⟩
  | .hbm, ⟨41, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S16x4096x1024_0_1_2 : S1x1x1024.BroadcastsInDim S16x4096x1024 (![0, 1, 2] : Fin 3 → Fin S16x4096x1024.rank)
  bcast_S_S16 : S_.BroadcastsInDim S16 (![] : Fin 0 → Fin S16.rank)
  bcast_S16_S16x1_0 : S16.BroadcastsInDim S16x1 (![0] : Fin 1 → Fin S16x1.rank)
  bcast_S_S16x4096x1024 : S_.BroadcastsInDim S16x4096x1024 (![] : Fin 0 → Fin S16x4096x1024.rank)
  dot_S16x4096x1024_S1024x1024_S16x4096x1024_2_1_01_0_n_n_wf : DotDims.WF S16x4096x1024 S1024x1024 S16x4096x1024 [2] [1] [0, 1] [0] [] []
  dot_S16x4096x1024_S16x1024_S16x4096x16_2_1_01_0_n_n_wf : DotDims.WF S16x4096x1024 S16x1024 S16x4096x16 [2] [1] [0, 1] [0] [] []
  dot_S16x4096x16_S1024x16_S16x4096x1024_2_1_01_0_n_n_wf : DotDims.WF S16x4096x16 S1024x16 S16x4096x1024 [2] [1] [0, 1] [0] [] []
  gather_S4x16x1024_S16x1_S16x16x1024_12_0_n_n_0_1_1161024_wf : GatherDims.WF S4x16x1024 S16x1 S16x16x1024 [1, 2] [0] [] [0] [] 1 ![1, 16, 1024]
  gather_S4x1024x16_S16x1_S16x1024x16_12_0_n_n_0_1_1102416_wf : GatherDims.WF S4x1024x16 S16x1 S16x1024x16 [1, 2] [0] [] [0] [] 1 ![1, 1024, 16]
  dot_S16x4096x1024_S16x16x1024_S16x4096x16_2_2_1_1_0_0_wf : DotDims.WF S16x4096x1024 S16x16x1024 S16x4096x16 [2] [2] [1] [1] [0] [0]
  dot_S16x4096x16_S16x1024x16_S16x4096x1024_2_2_1_1_0_0_wf : DotDims.WF S16x4096x16 S16x1024x16 S16x4096x1024 [2] [2] [1] [1] [0] [0]

variable [Facts₀]

def dot_S16x4096x1024_S1024x1024_S16x4096x1024_2_1_01_0_n_n : DotDims S16x4096x1024 S1024x1024 S16x4096x1024 where
  lhsContracting := [2]
  rhsContracting := [1]
  lhsNonContracting := [0, 1]
  rhsNonContracting := [0]
  lhsBatch := []
  rhsBatch := []
  wf := dot_S16x4096x1024_S1024x1024_S16x4096x1024_2_1_01_0_n_n_wf
def dot_S16x4096x1024_S16x1024_S16x4096x16_2_1_01_0_n_n : DotDims S16x4096x1024 S16x1024 S16x4096x16 where
  lhsContracting := [2]
  rhsContracting := [1]
  lhsNonContracting := [0, 1]
  rhsNonContracting := [0]
  lhsBatch := []
  rhsBatch := []
  wf := dot_S16x4096x1024_S16x1024_S16x4096x16_2_1_01_0_n_n_wf
def dot_S16x4096x16_S1024x16_S16x4096x1024_2_1_01_0_n_n : DotDims S16x4096x16 S1024x16 S16x4096x1024 where
  lhsContracting := [2]
  rhsContracting := [1]
  lhsNonContracting := [0, 1]
  rhsNonContracting := [0]
  lhsBatch := []
  rhsBatch := []
  wf := dot_S16x4096x16_S1024x16_S16x4096x1024_2_1_01_0_n_n_wf
def gather_S4x16x1024_S16x1_S16x16x1024_12_0_n_n_0_1_1161024 : GatherDims S4x16x1024 S16x1 S16x16x1024 where
  offsetDims := [1, 2]
  collapsedSliceDims := [0]
  operandBatchingDims := []
  startIndicesBatchingDims := []
  startIndexMap := [0]
  indexVectorDim := 1
  sliceSizes := ![1, 16, 1024]
  wf := gather_S4x16x1024_S16x1_S16x16x1024_12_0_n_n_0_1_1161024_wf
def gather_S4x1024x16_S16x1_S16x1024x16_12_0_n_n_0_1_1102416 : GatherDims S4x1024x16 S16x1 S16x1024x16 where
  offsetDims := [1, 2]
  collapsedSliceDims := [0]
  operandBatchingDims := []
  startIndicesBatchingDims := []
  startIndexMap := [0]
  indexVectorDim := 1
  sliceSizes := ![1, 1024, 16]
  wf := gather_S4x1024x16_S16x1_S16x1024x16_12_0_n_n_0_1_1102416_wf
def dot_S16x4096x1024_S16x16x1024_S16x4096x16_2_2_1_1_0_0 : DotDims S16x4096x1024 S16x16x1024 S16x4096x16 where
  lhsContracting := [2]
  rhsContracting := [2]
  lhsNonContracting := [1]
  rhsNonContracting := [1]
  lhsBatch := [0]
  rhsBatch := [0]
  wf := dot_S16x4096x1024_S16x16x1024_S16x4096x16_2_2_1_1_0_0_wf
def dot_S16x4096x16_S16x1024x16_S16x4096x1024_2_2_1_1_0_0 : DotDims S16x4096x16 S16x1024x16 S16x4096x1024 where
  lhsContracting := [2]
  rhsContracting := [2]
  lhsNonContracting := [1]
  rhsNonContracting := [1]
  lhsBatch := [0]
  rhsBatch := [0]
  wf := dot_S16x4096x16_S16x1024x16_S16x4096x1024_2_2_1_1_0_0_wf

class Facts : Prop extends Facts₀ where

variable [Facts]
-- ==== Proof.IdsInRange.lean ====
/-
  The adapter ids are adapter numbers.

  The precondition ends in two all-quantified comparisons of the id words: every word is at least 0 and below 4,
  both read signed. Each `jnp.all` is a reduction by `and` from 1 over the sixteen comparison bits, and the
  predicate is the `and` of those results onto the nine finiteness conjuncts. If the whole predicate is 1 then
  both reductions are 1, so every comparison bit is 1: word `k` satisfies `0 ≤ w` and `w < 4` as signed
  integers. A word whose signed reading is in [0, 4) has the same unsigned reading, so it is below 4 unsigned.
  Nothing here looks at the float arguments, so the statement is for every float instance.
-/
import proofs.«428571_j82291573391728_1_alg».proof.Pre_finite_inputs
import proofs.«428571_j82291573391728_1_alg».proof.Proof.Gen.Pre_finite_inputs
import Idealize.ShloMosaic.Lib.ReduceAll
import Idealize.ShloMosaic.Lib.ValueIdx

noncomputable section

namespace Cert.IdsInRange

open Cert.Pre_finite_inputs Idealize.ShloMosaic

/-- The scalar shape has one index. -/
instance subsingleton_scalar_idx : Subsingleton S_.Idx := ⟨fun _ _ => funext fun d => d.elim0⟩

/-- A 32-bit word that is at least 0 and below 4, read signed, is below 4 read unsigned: a word with its top
    bit set reads negative. -/
theorem word_lt_four (w : BitVec 32) (h0 : IntOp.cmpi .sge w 0#32 = 1#1) (h4 : IntOp.cmpi .slt w 4#32 = 1#1) :
    w.toNat < 4 := by
  rw [IntOp.cmpi_sge, show (0#32 : BitVec 32).toInt = 0 from by decide] at h0
  rw [IntOp.cmpi_slt, show (4#32 : BitVec 32).toInt = 4 from by decide] at h4
  have hw := BitVec.toInt_eq_toNat_cond w
  have hlt := w.isLt
  split at hw <;> omega

/-- The precondition gives the two comparison bits of id word `k`. -/
theorem cmp_bits {F : FTy → Type} [FloatOps F] (a0 : FVec F S16x4096x1024 .f32) (a1 : FVec F S1024x1024 .f32)
    (a2 : FVec F S1024 .f32) (a3 : FVec F S16x1024 .f32) (a4 : FVec F S1024x16 .f32) (a5 : FVec F S4x16x1024 .f32)
    (a6 : FVec F S4x1024x16 .f32) (a7 : FVec F S16x1024 .f32) (a8 : FVec F S1024x16 .f32) (ids : IVec S16 32)
    (h : Cert.Pre_finite_inputs.fn (F := F) a0 a1 a2 a3 a4 a5 a6 a7 a8 ids = fun _ => 1#1) (k : Fin 16) :
    IntOp.cmpi .sge (ids (ValueIdx.ix1 k)) 0#32 = 1#1 ∧ IntOp.cmpi .slt (ids (ValueIdx.ix1 k)) 4#32 = 1#1 := by
  have e := congrFun h ValueIdx.ix0
  dsimp only [fn, fn_part1, fn_part2, fn_part3] at e
  -- the last `and`: everything before, and the reduction of the `< 4` bits
  obtain ⟨e47, e50⟩ := IntOp.andi_eq_one.1 e
  -- the `and` before it: the float conjuncts, and the reduction of the `≥ 0` bits
  obtain ⟨-, e46⟩ := IntOp.andi_eq_one.1 e47
  exact ⟨Host.reduce_andi_all _ _ _ _ _ e46 (ValueIdx.ix1 k), Host.reduce_andi_all _ _ _ _ _ e50 (ValueIdx.ix1 k)⟩

/-- Under the precondition every adapter id, read unsigned, is below 4. -/
theorem toNat_lt_four {F : FTy → Type} [FloatOps F] (a0 : FVec F S16x4096x1024 .f32) (a1 : FVec F S1024x1024 .f32)
    (a2 : FVec F S1024 .f32) (a3 : FVec F S16x1024 .f32) (a4 : FVec F S1024x16 .f32) (a5 : FVec F S4x16x1024 .f32)
    (a6 : FVec F S4x1024x16 .f32) (a7 : FVec F S16x1024 .f32) (a8 : FVec F S1024x16 .f32) (ids : IVec S16 32)
    (h : Cert.Pre_finite_inputs.fn (F := F) a0 a1 a2 a3 a4 a5 a6 a7 a8 ids = fun _ => 1#1) (k : Fin 16) :
    (ids (ValueIdx.ix1 k)).toNat < 4 :=
  word_lt_four _ (cmp_bits a0 a1 a2 a3 a4 a5 a6 a7 a8 ids h k).1 (cmp_bits a0 a1 a2 a3 a4 a5 a6 a7 a8 ids h k).2

end Cert.IdsInRange

end
-- ==== Proof.OkKernel.lean ====
/-
  The pipeline's side condition, from the precondition.

  The windows onto the two adapter tables take their block from the prefetched id table: at grid point
  `(b, t)` the block index is `(ids[b], 0, 0)`, of blocks `[1, 1024, 16]` in the `[4, 1024, 16]` table and of
  blocks `[1, 16, 1024]` in the `[4, 16, 1024]` table. Such a block lies inside its table exactly when
  `ids[b] < 4`, read unsigned, and the precondition says so of every id (`Cert.IdsInRange.toNat_lt_four`): the
  table the region reads is the id argument as launched, since no host operation writes it. The blocks' ends
  are whole words whatever the index: the elements are 16 bits wide, two rows to a word, and both blocks have an
  even number of rows (1024 and 16).
-/
import proofs.«428571_j82291573391728_1_alg».proof.Defs
import proofs.«428571_j82291573391728_1_alg».proof.Proof.Gen.Kernel.Frame
import proofs.«428571_j82291573391728_1_alg».proof.Proof.Gen.Pre_finite_inputs
import proofs.«428571_j82291573391728_1_alg».proof.Proof.IdsInRange

set_option maxRecDepth 16384

noncomputable section

namespace Cert.Kernel.OkOfPre

open Cert.Kernel Cert.Kernel.Gen
open Idealize.ShloMosaic Idealize.ShloMosaic.TcCoe Idealize.SL.Sem

variable (m : (ℓ : Loc nD τ sig) → Buf (Elt Bits) ℓ)

/-- Every id the program is launched with is below 4, on every device. -/
theorem ids_lt (h : Cert.Pre_Kernel m) (c : Dev nD) (k : Fin 16) :
    (m ((c.tc : Thread nD τ).loc main_arg9) (ValueIdx.ix1 k)).toNat < 4 :=
  Cert.IdsInRange.toNat_lt_four (F := Bits) _ _ _ _ _ _ _ _ _ _ (h c) k

/-- The table the region reads is the id argument, so each of its words is below 4. -/
theorem tbl_lt (h : Cert.Pre_Kernel m) (x : S16.Idx) : (tbl m 0 x).toNat < 4 := by
  have e : tbl m 0 = m (((0 : Dev nD).tc : Thread nD τ).loc main_arg9) := V_main_arg9 m 0
  rw [e, ValueIdx.eq_ix1 x]
  exact ids_lt m h 0 (x 0)

/-- Block `(n, 0, 0)` of blocks `[1, r, c]` lies inside a `[4, r, c]` array when `n < 4`. -/
theorem block_inside {n r c : Nat} (hn : n < 4) (a : Fin 3) :
    ((![n, 0, 0] : Fin 3 → Nat) a + 1) * (![1, r, c] : Fin 3 → Nat) a ≤ (![4, r, c] : Fin 3 → Nat) a := by
  fin_cases a
  · show (n + 1) * 1 ≤ 4
    omega
  · show (0 + 1) * r ≤ r
    omega
  · show (0 + 1) * c ≤ c
    omega

/-- The side condition of the tables' contents: both table-indexed windows have their block inside the array at
    every grid point, and their transfers end on whole words. -/
theorem ok_of_pre (h : Cert.Pre_Kernel m) : Ok m :=
  ⟨fun i => ⟨fun a => block_inside (tbl_lt m h _) a, Or.inr (Affine.block_words_dvd (by decide) (by decide))⟩,
   fun i => ⟨fun a => block_inside (tbl_lt m h _) a, Or.inr (Affine.block_words_dvd (by decide) (by decide))⟩⟩

end Cert.Kernel.OkOfPre

end
-- ==== Proof.OkKernelIdeal.lean ====
/-
  The pipeline's side condition, from the precondition.

  The windows onto the two adapter tables take their block from the prefetched id table: at grid point
  `(b, t)` the block index is `(ids[b], 0, 0)`, of blocks `[1, 1024, 16]` in the `[4, 1024, 16]` table and of
  blocks `[1, 16, 1024]` in the `[4, 16, 1024]` table. Such a block lies inside its table exactly when
  `ids[b] < 4`, read unsigned, and the precondition says so of every id (`Cert.IdsInRange.toNat_lt_four`): the
  table the region reads is the id argument as launched, since no host operation writes it. The blocks' ends
  are whole words whatever the index: the elements are 16 bits wide, two rows to a word, and both blocks have an
  even number of rows (1024 and 16).
-/
import proofs.«428571_j82291573391728_1_alg».proof.Defs
import proofs.«428571_j82291573391728_1_alg».proof.Proof.Gen.KernelIdeal.Frame
import proofs.«428571_j82291573391728_1_alg».proof.Proof.Gen.Pre_finite_inputs
import proofs.«428571_j82291573391728_1_alg».proof.Proof.IdsInRange

set_option maxRecDepth 16384

noncomputable section

namespace Cert.KernelIdeal.OkOfPre

open Cert.KernelIdeal Cert.KernelIdeal.Gen
open Idealize.ShloMosaic Idealize.ShloMosaic.TcCoe Idealize.SL.Sem

variable (m : (ℓ : Loc nD τ sig) → Buf (Elt Ideal) ℓ)

/-- Every id the program is launched with is below 4, on every device. -/
theorem ids_lt (h : Cert.Pre_KernelIdeal m) (c : Dev nD) (k : Fin 16) :
    (m ((c.tc : Thread nD τ).loc main_arg9) (ValueIdx.ix1 k)).toNat < 4 :=
  Cert.IdsInRange.toNat_lt_four (F := Ideal) _ _ _ _ _ _ _ _ _ _ (h c) k

/-- The table the region reads is the id argument, so each of its words is below 4. -/
theorem tbl_lt (h : Cert.Pre_KernelIdeal m) (x : S16.Idx) : (tbl m 0 x).toNat < 4 := by
  have e : tbl m 0 = m (((0 : Dev nD).tc : Thread nD τ).loc main_arg9) := V_main_arg9 m 0
  rw [e, ValueIdx.eq_ix1 x]
  exact ids_lt m h 0 (x 0)

/-- Block `(n, 0, 0)` of blocks `[1, r, c]` lies inside a `[4, r, c]` array when `n < 4`. -/
theorem block_inside {n r c : Nat} (hn : n < 4) (a : Fin 3) :
    ((![n, 0, 0] : Fin 3 → Nat) a + 1) * (![1, r, c] : Fin 3 → Nat) a ≤ (![4, r, c] : Fin 3 → Nat) a := by
  fin_cases a
  · show (n + 1) * 1 ≤ 4
    omega
  · show (0 + 1) * r ≤ r
    omega
  · show (0 + 1) * c ≤ c
    omega

/-- The side condition of the tables' contents: both table-indexed windows have their block inside the array at
    every grid point, and their transfers end on whole words. -/
theorem ok_of_pre (h : Cert.Pre_KernelIdeal m) : Ok m :=
  ⟨fun i => ⟨fun a => block_inside (tbl_lt m h _) a, Or.inr (Affine.block_words_dvd (by decide) (by decide))⟩,
   fun i => ⟨fun a => block_inside (tbl_lt m h _) a, Or.inr (Affine.block_words_dvd (by decide) (by decide))⟩⟩

end Cert.KernelIdeal.OkOfPre

end
-- ==== Proof.RowChain.lean ====
/-
  The layer, row by row.

  Every stage of the layer acts on rows: the base map, the two shared rank-16 maps, the selected adapter's
  rank-16 pair and the two closing rank-16 maps each send a row vector `v` to `v · Wᵀ`, whose entry `o` is
  `∑ j, v j * W o j`. So output row `(b, s)` is a function of input row `(b, s)`, of the shared weights, and of
  the two adapter matrices that row `b`'s adapter id selects:

    out = (x · W_baseᵀ + bias) + (((((x · W_tᵀ) · W_sᵀ) · W_aᵀ) · W_bᵀ) · W_qᵀ) · W_pᵀ * scale.

  No sum is regrouped and no factor is moved across a sum, so nothing here needs the entries to be finite.
-/
import Idealize.ShloMosaic.Lib.ValueIdx

noncomputable section

namespace RowChain

open Idealize.ShloMosaic Idealize.ShloMosaic.ValueIdx
open scoped BigOperators

/-- A row vector times the transpose of a weight matrix: entry `o` is `∑ j, v j * W o j`. -/
def apply {n k : Nat} (v : Fin k → EReal) (W : Fin n → Fin k → EReal) : Fin n → EReal :=
  fun o => ∑ j : Fin k, v j * W o j

/-- One output row from one input row `x`: the base map with its bias, plus the chain of six rank-16 maps
    scaled by `scale`. -/
def row (scale : EReal) (x : Fin 1024 → EReal) (Wbase : Fin 1024 → Fin 1024 → EReal) (bias : Fin 1024 → EReal)
    (Wt : Fin 16 → Fin 1024 → EReal) (Ws : Fin 1024 → Fin 16 → EReal)
    (Wa : Fin 16 → Fin 1024 → EReal) (Wb : Fin 1024 → Fin 16 → EReal)
    (Wq : Fin 16 → Fin 1024 → EReal) (Wp : Fin 1024 → Fin 16 → EReal) : Fin 1024 → EReal :=
  fun o => (apply x Wbase o + bias o)
    + apply (apply (apply (apply (apply (apply x Wt) Ws) Wa) Wb) Wq) Wp o * scale

/-- The adapter an id word names, as a row of the four-adapter tables (the word itself when it is below 4). -/
def sel (w : BitVec 32) : Fin 4 := ⟨w.toNat % 4, Nat.mod_lt _ (by decide)⟩

theorem sel_val (w : BitVec 32) (h : w.toNat < 4) : (sel w).val = w.toNat := Nat.mod_eq_of_lt h

/-- The whole result: entry `(b, s, o)` is entry `o` of the row function at input row `(b, s)` and at the
    adapter matrices `W_a[ids b]`, `W_b[ids b]`. -/
def layer (scale : EReal) (x : (⟨3, ![16, 4096, 1024]⟩ : Shape).Idx → EReal)
    (Wbase : (⟨2, ![1024, 1024]⟩ : Shape).Idx → EReal) (bias : (⟨1, ![1024]⟩ : Shape).Idx → EReal)
    (Wt : (⟨2, ![16, 1024]⟩ : Shape).Idx → EReal) (Ws : (⟨2, ![1024, 16]⟩ : Shape).Idx → EReal)
    (Wa : (⟨3, ![4, 16, 1024]⟩ : Shape).Idx → EReal) (Wb : (⟨3, ![4, 1024, 16]⟩ : Shape).Idx → EReal)
    (Wq : (⟨2, ![16, 1024]⟩ : Shape).Idx → EReal) (Wp : (⟨2, ![1024, 16]⟩ : Shape).Idx → EReal)
    (ids : (⟨1, ![16]⟩ : Shape).Idx → BitVec 32) : (⟨3, ![16, 4096, 1024]⟩ : Shape).Idx → EReal :=
  fun j => row scale (fun i => x (ix3 (j 0) (j 1) i)) (fun o i => Wbase (ix2 o i)) (fun o => bias (ix1 o))
    (fun t i => Wt (ix2 t i)) (fun i t => Ws (ix2 i t))
    (fun r i => Wa (ix3 (sel (ids (ix1 (j 0)))) r i)) (fun o r => Wb (ix3 (sel (ids (ix1 (j 0)))) o r))
    (fun t o => Wq (ix2 t o)) (fun o t => Wp (ix2 o t)) (j 2)

end RowChain

end
-- ==== Proof.LibRowTile.lean ====
/-
  A row tile of a matrix product is the product of the row tile.

  For a plain two-dimensional contraction (left operand [rows, K] contracted on its second axis, right operand
  [K, n] on its first, no batch axes) the result element at (r, c) is the sum over k of lhs (r, k) * rhs (k, c).
  So if a tile [m, K] of a taller left operand [M, K] holds, on its row r, the taller operand's row i, then the
  tile's product at (r, c) and the whole product at (i, c) are the same sum. The two contractions are given by
  their own dimension records, whose contraction index types differ; both sums are re-indexed over Fin K.
-/
import Idealize.ShloMosaic.PureOps.Ideal.Laws
import Idealize.ShloMosaic.Lib.ValueIdx

open scoped BigOperators

namespace Cert.Lib

open Idealize.ShloMosaic Idealize.ShloMosaic.ValueIdx

/-- A coordinate of an index depends on the axis only through the axis's number. -/
theorem idx_val_congr {s : Shape} (j : s.Idx) {p q : Nat} (hp : p < s.rank) (hq : q < s.rank) (h : p = q) :
    (j ⟨p, hp⟩).val = (j ⟨q, hq⟩).val := by subst h; rfl

section Axes

variable {sl sr so : Shape} (d : DotDims sl sr so)

/-- With no batch axes and one free axis a on the left, the left operand's index on a is the result index's
    first coordinate. -/
theorem lhsIdx_val_of_free {a : Fin sl.rank} (hb : d.lhsBatch = []) (hn : d.lhsNonContracting = [a])
    (j : so.Idx) (k : d.contr.Idx) (h0 : 0 < so.rank) : (d.lhsIdx j k a).val = (j ⟨0, h0⟩).val := by
  have hnb : a ∉ d.lhsBatch := by rw [hb]; simp
  have hmem : a ∈ d.lhsNonContracting := by rw [hn]; simp
  unfold DotDims.lhsIdx
  rw [dif_neg hnb, dif_pos hmem]
  simp only [Fin.val_cast]
  exact idx_val_congr j _ _ (by simp [hb, hn])

/-- With no batch axes, one free axis on the left and one free axis a on the right, the right operand's index on
    a is the result index's second coordinate. -/
theorem rhsIdx_val_of_free {a : Fin sr.rank} {al : Fin sl.rank} (hlb : d.lhsBatch = []) (hln : d.lhsNonContracting = [al])
    (hb : d.rhsBatch = []) (hn : d.rhsNonContracting = [a])
    (j : so.Idx) (k : d.contr.Idx) (h1 : 1 < so.rank) : (d.rhsIdx j k a).val = (j ⟨1, h1⟩).val := by
  have hnb : a ∉ d.rhsBatch := by rw [hb]; simp
  have hmem : a ∈ d.rhsNonContracting := by rw [hn]; simp
  unfold DotDims.rhsIdx
  rw [dif_neg hnb, dif_pos hmem]
  simp only [Fin.val_cast]
  exact idx_val_congr j _ _ (by simp [hlb, hln, hn])

end Axes

/-- The dimension numbers of a plain product [rows, K] · [K, n]: contract the left operand's second axis with the
    right operand's first; the free axes are the left's first and the right's second; no batch axes. -/
structure IsPlain {a K n : Nat} (d : DotDims ⟨2, ![a, K]⟩ ⟨2, ![K, n]⟩ ⟨2, ![a, n]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []
  rank : d.contr.rank = 1
  size : d.contr.size ⟨0, by omega⟩ = K

section Plain

variable {a K n : Nat} {d : DotDims ⟨2, ![a, K]⟩ ⟨2, ![K, n]⟩ ⟨2, ![a, n]⟩}

/-- The left operand is read at (row of the result, k). -/
theorem IsPlain.lhsIdx_eq (h : IsPlain d) (j : (⟨2, ![a, n]⟩ : Shape).Idx) (k : Fin K) :
    d.lhsIdx j ((contrEquiv1 d K h.rank h.size).symm k) = ix2 (j 0) k := by
  funext ax; apply Fin.ext
  match ax with
  | ⟨0, _⟩ => exact lhsIdx_val_of_free d (a := (0 : Fin 2)) h.lb h.ln j _ Nat.zero_lt_two
  | ⟨1, _⟩ =>
    exact (d.lhsIdx_val_of_single (cl := (1 : Fin 2)) h.lc j _).trans (contrEquiv1_symm_val d K h.rank h.size k)

/-- The right operand is read at (k, column of the result). -/
theorem IsPlain.rhsIdx_eq (h : IsPlain d) (j : (⟨2, ![a, n]⟩ : Shape).Idx) (k : Fin K) :
    d.rhsIdx j ((contrEquiv1 d K h.rank h.size).symm k) = ix2 k (j 1) := by
  funext ax; apply Fin.ext
  match ax with
  | ⟨0, _⟩ =>
    exact (d.rhsIdx_val_of_single (cr := (0 : Fin 2)) h.rc j _).trans (contrEquiv1_symm_val d K h.rank h.size k)
  | ⟨1, _⟩ => exact rhsIdx_val_of_free d (a := (1 : Fin 2)) (al := (0 : Fin 2)) h.lb h.ln h.rb h.rn j _ Nat.one_lt_two

/-- A plain product's contraction sum, over the contracted coordinate itself. -/
theorem IsPlain.sum_eq (h : IsPlain d) (l : (⟨2, ![a, K]⟩ : Shape).Idx → EReal) (r : (⟨2, ![K, n]⟩ : Shape).Idx → EReal)
    (j : (⟨2, ![a, n]⟩ : Shape).Idx) :
    ∑ k : d.contr.Idx, l (d.lhsIdx j k) * r (d.rhsIdx j k) = ∑ k : Fin K, l (ix2 (j 0) k) * r (ix2 k (j 1)) := by
  rw [← Equiv.sum_comp (contrEquiv1 d K h.rank h.size).symm]
  exact Finset.sum_congr rfl fun k _ => congrArg₂ (· * ·) (congrArg l (h.lhsIdx_eq j k)) (congrArg r (h.rhsIdx_eq j k))

end Plain

/-- A ROW TILE OF A PRODUCT IS THE PRODUCT OF THE ROW TILE: if row (y 0) of the tile lt is row (i 0) of the whole
    left operand l, and y, i name the same column, the two contraction sums are equal. -/
theorem sum_rowTile {m M K n : Nat}
    {dT : DotDims ⟨2, ![m, K]⟩ ⟨2, ![K, n]⟩ ⟨2, ![m, n]⟩} {dW : DotDims ⟨2, ![M, K]⟩ ⟨2, ![K, n]⟩ ⟨2, ![M, n]⟩}
    (hT : IsPlain dT) (hW : IsPlain dW)
    (lt : (⟨2, ![m, K]⟩ : Shape).Idx → EReal) (l : (⟨2, ![M, K]⟩ : Shape).Idx → EReal) (r : (⟨2, ![K, n]⟩ : Shape).Idx → EReal)
    (y : (⟨2, ![m, n]⟩ : Shape).Idx) (i : (⟨2, ![M, n]⟩ : Shape).Idx)
    (hrow : ∀ k : Fin K, lt (ix2 (y 0) k) = l (ix2 (i 0) k)) (hcol : y 1 = i 1) :
    ∑ k : dT.contr.Idx, lt (dT.lhsIdx y k) * r (dT.rhsIdx y k) = ∑ k : dW.contr.Idx, l (dW.lhsIdx i k) * r (dW.rhsIdx i k) := by
  rw [hT.sum_eq lt r y, hW.sum_eq l r i]
  exact Finset.sum_congr rfl fun k _ => by rw [hrow k, hcol]

end Cert.Lib
-- ==== Proof.KernelRow.lean ====
/-
  One row of the kernel body's result.

  At a grid point the body holds one [1, 512, 1024] block of `x`, the six shared weight matrices already
  transposed ([in, out] layout) and the selected adapter's pair as [1, in, out] blocks. Each of its seven
  products is a plain [rows, K] · [K, n] product into a zero accumulator, so its entry (p, q) is
  `∑ k, lhs (p, k) * rhs (k, q)`: row p of the result is row p of the left operand times the transpose of the
  matrix `o k ↦ rhs (k, o)`. Format changes are the identity on extended reals and the shape casts only add or
  drop a leading unit axis, so row p of the stored block is the row function of `RowChain` at row p of the
  `x` block.
-/
import proofs.«428571_j82291573391728_1_alg».proof.Proof.Gen.KernelIdeal.Skeleton
import proofs.«428571_j82291573391728_1_alg».proof.Proof.RowChain
import proofs.«428571_j82291573391728_1_alg».proof.Proof.LibRowTile
import Idealize.ShloMosaic.Lib.Pipeline.Value
import Idealize.ShloMosaic.Lib.ValueLayout
import Idealize.ShloMosaic.PureOps.Ideal.Laws

noncomputable section

namespace Cert.KernelIdeal.RowValue

open Cert.KernelIdeal Cert.KernelIdeal.Gen Cert.Lib
open Idealize.ShloMosaic Idealize.ShloMosaic.ValueIdx
open scoped BigOperators

/-- The three dimension records of the body are plain products. -/
theorem plain_wide : IsPlain dot_S512x1024_S1024x1024_S512x1024_1_0_0_1_n_n := ⟨rfl, rfl, rfl, rfl, rfl, rfl, rfl, rfl⟩
theorem plain_down : IsPlain dot_S512x1024_S1024x16_S512x16_1_0_0_1_n_n := ⟨rfl, rfl, rfl, rfl, rfl, rfl, rfl, rfl⟩
theorem plain_up : IsPlain dot_S512x16_S16x1024_S512x1024_1_0_0_1_n_n := ⟨rfl, rfl, rfl, rfl, rfl, rfl, rfl, rfl⟩

/-- A plain product into the zero accumulator, read at (p, q): row p of the left operand applied to the
    transpose of the right operand. -/
theorem matmul_plain {a K n : Nat} {φ₁ φ₂ : FTy} {d : DotDims ⟨2, ![a, K]⟩ ⟨2, ![K, n]⟩ ⟨2, ![a, n]⟩} (hd : IsPlain d)
    (l : FVec Ideal ⟨2, ![a, K]⟩ φ₁) (r : FVec Ideal ⟨2, ![K, n]⟩ φ₂) (p : Fin a) (q : Fin n) :
    matmul d none l r (constant ⟨2, ![a, n]⟩ .f32 0x00000000#32) (ix2 p q)
      = RowChain.apply (fun k => l (ix2 p k)) (fun o k => r (ix2 k o)) q :=
  (Ideal.matmul_constant_zero_apply d none l r (ix2 p q)).trans (hd.sum_eq l r (ix2 p q))

/-- The same product followed by a change of float format (the identity on extended reals), as a row. -/
theorem matmul_plain_row {a K n : Nat} {φ₁ φ₂ : FTy} {d : DotDims ⟨2, ![a, K]⟩ ⟨2, ![K, n]⟩ ⟨2, ![a, n]⟩} (hd : IsPlain d)
    (l : FVec Ideal ⟨2, ![a, K]⟩ φ₁) (r : FVec Ideal ⟨2, ![K, n]⟩ φ₂) (p : Fin a) (v : Fin K → EReal) (W : Fin n → Fin K → EReal)
    (hl : (fun k => l (ix2 p k)) = v) (hr : (fun o k => r (ix2 k o)) = W) :
    (fun q => matmul d none l r (constant ⟨2, ![a, n]⟩ .f32 0x00000000#32) (ix2 p q)) = RowChain.apply v W := by
  subst hl hr
  exact funext fun q => matmul_plain hd l r p q

section Row

variable (x0 : Vec Ideal S1x512x1024 .f32) (x1 : Vec Ideal S1024x1024 .bf16) (x2 : Vec Ideal S1x1024 .f32)
  (x3 : Vec Ideal S1024x16 .bf16) (x4 : Vec Ideal S16x1024 .bf16) (x5 : Vec Ideal S1x1024x16 .bf16)
  (x6 : Vec Ideal S1x16x1024 .bf16) (x7 : Vec Ideal S1024x16 .bf16) (x8 : Vec Ideal S16x1024 .bf16)

/-- Row p of the body's left operand is row p of the `x` block. -/
theorem x_row (p : Fin 512) : (fun k => k0_pay2 x0 (ix2 p k)) = fun k => x0 (ix3 (0 : Fin 1) p k) :=
  funext fun k => by unfold k0_pay2; exact shapeCast_1ab_ab_apply x0 _ p k

/-- The chain of six rank-16 maps, as far as the body's last format change: row p. -/
theorem chain_row (p : Fin 512) :
    (fun t => k0_pay4 x0 x3 x4 x5 x6 x7 (ix2 p t))
      = RowChain.apply (RowChain.apply (RowChain.apply (RowChain.apply (RowChain.apply (fun k => x0 (ix3 (0 : Fin 1) p k))
          (fun t k => x3 (ix2 k t))) (fun i t => x4 (ix2 t i))) (fun r k => x5 (ix3 (0 : Fin 1) k r)))
          (fun o r => x6 (ix3 (0 : Fin 1) r o))) (fun t o => x7 (ix2 o t)) := by
  unfold k0_pay4
  refine matmul_plain_row plain_down _ _ p _ _ ?_ (by rw [shapeCast_self])
  refine matmul_plain_row plain_up _ _ p _ _ ?_
    (funext fun o => funext fun r => shapeCast_1ab_ab_apply x6 _ r o)
  refine matmul_plain_row plain_down _ _ p _ _ ?_
    (funext fun r => funext fun k => shapeCast_1ab_ab_apply x5 _ k r)
  refine matmul_plain_row plain_up _ _ p _ _ ?_ (by rw [shapeCast_self])
  exact matmul_plain_row plain_down _ _ p _ _ (x_row x0 p) (by rw [shapeCast_self])

/-- ROW p OF THE STORED BLOCK is the row function at row p of the `x` block, at the weights as the body holds
    them (transposed), the bias row and the selected adapter's pair. -/
theorem stored_row (u : Fin 1) (p : Fin 512) (q : Fin 1024) :
    k0_pay1 (k0_pay3 x0 x1 x2) (k0_pay4 x0 x3 x4 x5 x6 x7) x8 (ix3 u p q)
      = RowChain.row (Ideal.ofBits .f32 0x3F800000#32) (fun k => x0 (ix3 (0 : Fin 1) p k)) (fun o k => x1 (ix2 k o))
          (fun o => x2 (ix2 (0 : Fin 1) o)) (fun t k => x3 (ix2 k t)) (fun i t => x4 (ix2 t i))
          (fun r k => x5 (ix3 (0 : Fin 1) k r)) (fun o r => x6 (ix3 (0 : Fin 1) r o))
          (fun t o => x7 (ix2 o t)) (fun o t => x8 (ix2 t o)) q := by
  unfold k0_pay1
  refine (shapeCast_ab_1ab_apply _ _ u p q).trans ?_
  refine (addf_apply _ _ _).trans ?_
  unfold RowChain.row
  refine congrArg₂ (· + ·) ?_ ?_
  · unfold k0_pay3
    refine (addf_apply _ _ _).trans (congrArg₂ (· + ·) ?_ ?_)
    · exact congrFun (matmul_plain_row plain_wide _ _ p _ _ (x_row x0 p) (by rw [shapeCast_self])) q
    · refine (broadcastTo_1b_ab_apply _ _ p q).trans ?_
      rw [shapeCast_self]
  · refine (mulf_apply _ _ _).trans (congrArg₂ (· * ·) ?_ rfl)
    exact congrFun (matmul_plain_row plain_up _ _ p _ _ (chain_row x0 x3 x4 x5 x6 x7 p) (by rw [shapeCast_self])) q

end Row

end Cert.KernelIdeal.RowValue

end
-- ==== Proof.KernelHost.lean ====
/-
  The arrays the region finds, in terms of the arrays at launch.

  Before the region the program transposes each weight matrix into [in, out] layout (the adapter tables
  matrix by matrix), changes its float format — the identity on extended reals — and views the bias as one
  row. So each staged array, read at an index, is the launch array read at the transposed index.
-/
import proofs.«428571_j82291573391728_1_alg».proof.Proof.Gen.KernelIdeal.Frame.Runs
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.ShloMosaic.Tactic Idealize.SL.Sem Idealize.ShloMosaic.ValueIdx

variable (m : (ℓ : Loc nD τ sig) → Buf (Elt Ideal) ℓ)

/-- The launch arrays, at their literal types. -/
abbrev inX (c : Dev nD) : FVec Ideal S16x4096x1024 .f32 := m ((c : Thread nD τ).loc main_arg0)
abbrev inBase (c : Dev nD) : FVec Ideal S1024x1024 .f32 := m ((c : Thread nD τ).loc main_arg1)
abbrev inBias (c : Dev nD) : FVec Ideal S1024 .f32 := m ((c : Thread nD τ).loc main_arg2)
abbrev inT (c : Dev nD) : FVec Ideal S16x1024 .f32 := m ((c : Thread nD τ).loc main_arg3)
abbrev inS (c : Dev nD) : FVec Ideal S1024x16 .f32 := m ((c : Thread nD τ).loc main_arg4)
abbrev inA (c : Dev nD) : FVec Ideal S4x16x1024 .f32 := m ((c : Thread nD τ).loc main_arg5)
abbrev inB (c : Dev nD) : FVec Ideal S4x1024x16 .f32 := m ((c : Thread nD τ).loc main_arg6)
abbrev inQ (c : Dev nD) : FVec Ideal S16x1024 .f32 := m ((c : Thread nD τ).loc main_arg7)
abbrev inP (c : Dev nD) : FVec Ideal S1024x16 .f32 := m ((c : Thread nD τ).loc main_arg8)
abbrev inIds (c : Dev nD) : IVec S16 32 := m ((c : Thread nD τ).loc main_arg9)

/-- The arrays the region's windows stage, as it finds them, at their literal types. -/
abbrev stX (c : Dev nD) : FVec Ideal S16x4096x1024 .f32 := V m c main_arg0
abbrev stBase (c : Dev nD) : FVec Ideal S1024x1024 .bf16 := V m c main_v1
abbrev stBias (c : Dev nD) : FVec Ideal S1x1024 .f32 := V m c main_v2
abbrev stT (c : Dev nD) : FVec Ideal S1024x16 .bf16 := V m c main_v4
abbrev stS (c : Dev nD) : FVec Ideal S16x1024 .bf16 := V m c main_v6
abbrev stA (c : Dev nD) : FVec Ideal S4x1024x16 .bf16 := V m c main_v8
abbrev stB (c : Dev nD) : FVec Ideal S4x16x1024 .bf16 := V m c main_v10
abbrev stQ (c : Dev nD) : FVec Ideal S1024x16 .bf16 := V m c main_v12
abbrev stP (c : Dev nD) : FVec Ideal S16x1024 .bf16 := V m c main_v14

theorem stX_eq (c : Dev nD) : stX m c = inX m c := V_main_arg0 m c

theorem stBase_apply (c : Dev nD) (k o : Fin 1024) : stBase m c (ix2 k o) = inBase m c (ix2 o k) := by
  have e : stBase m c = truncf (F := Ideal) .bf16 (transpose S1024x1024 [1, 0] (inBase m c) transposes_S1024x1024_S1024x1024_1_0) bitsLt_bf16_f32 := by
    dsimp only [stBase, inBase, V, hostOps0]; after_results
  rw [e]; exact transpose_ix2_apply _ _ k o

theorem stBias_apply (c : Dev nD) (u : Fin 1) (o : Fin 1024) : stBias m c (ix2 u o) = inBias m c (ix1 o) := by
  have e : stBias m c = shapeCast S1x1024 (inBias m c) shapeCasts_S1024_S1x1024 := by
    dsimp only [stBias, inBias, V, hostOps0]; after_results; rfl
  rw [e]; exact shapeCast_a_1a_apply _ _ u o

theorem stT_apply (c : Dev nD) (k : Fin 1024) (t : Fin 16) : stT m c (ix2 k t) = inT m c (ix2 t k) := by
  have e : stT m c = truncf (F := Ideal) .bf16 (transpose S1024x16 [1, 0] (inT m c) transposes_S16x1024_S1024x16_1_0) bitsLt_bf16_f32 := by
    dsimp only [stT, inT, V, hostOps0]; after_results
  rw [e]; exact transpose_ix2_apply _ _ k t

theorem stS_apply (c : Dev nD) (t : Fin 16) (i : Fin 1024) : stS m c (ix2 t i) = inS m c (ix2 i t) := by
  have e : stS m c = truncf (F := Ideal) .bf16 (transpose S16x1024 [1, 0] (inS m c) transposes_S1024x16_S16x1024_1_0) bitsLt_bf16_f32 := by
    dsimp only [stS, inS, V, hostOps0]; after_results
  rw [e]; exact transpose_ix2_apply _ _ t i

theorem stA_apply (c : Dev nD) (a : Fin 4) (k : Fin 1024) (r : Fin 16) : stA m c (ix3 a k r) = inA m c (ix3 a r k) := by
  have e : stA m c = truncf (F := Ideal) .bf16 (transpose S4x1024x16 [0, 2, 1] (inA m c) transposes_S4x16x1024_S4x1024x16_0_2_1) bitsLt_bf16_f32 := by
    dsimp only [stA, inA, V, hostOps0]; after_results
  rw [e]; exact transpose_ix3_021_apply _ _ a k r

theorem stB_apply (c : Dev nD) (a : Fin 4) (r : Fin 16) (o : Fin 1024) : stB m c (ix3 a r o) = inB m c (ix3 a o r) := by
  have e : stB m c = truncf (F := Ideal) .bf16 (transpose S4x16x1024 [0, 2, 1] (inB m c) transposes_S4x1024x16_S4x16x1024_0_2_1) bitsLt_bf16_f32 := by
    dsimp only [stB, inB, V, hostOps0]; after_results
  rw [e]; exact transpose_ix3_021_apply _ _ a r o

theorem stQ_apply (c : Dev nD) (o : Fin 1024) (t : Fin 16) : stQ m c (ix2 o t) = inQ m c (ix2 t o) := by
  have e : stQ m c = truncf (F := Ideal) .bf16 (transpose S1024x16 [1, 0] (inQ m c) transposes_S16x1024_S1024x16_1_0) bitsLt_bf16_f32 := by
    dsimp only [stQ, inQ, V, hostOps0]; after_results
  rw [e]; exact transpose_ix2_apply _ _ o t

theorem stP_apply (c : Dev nD) (t : Fin 16) (o : Fin 1024) : stP m c (ix2 t o) = inP m c (ix2 o t) := by
  have e : stP m c = truncf (F := Ideal) .bf16 (transpose S16x1024 [1, 0] (inP m c) transposes_S1024x16_S16x1024_1_0) bitsLt_bf16_f32 := by
    dsimp only [stP, inP, V, hostOps0]; after_results
  rw [e]; exact transpose_ix2_apply _ _ t o

end Cert.KernelIdeal.HostValue

end
-- ==== Proof.KernelBlock.lean ====
/-
  From the body's one store to the whole result array.

  At grid point (b, s) the body stores one [1, 512, 1024] block: rows 512·s … 512·s + 511 of batch row b.
  Its input blocks are rows of the arrays the region finds: the `x` block is the same rows of `x`; the six shared
  weights and the bias are whole arrays; the adapter pair is matrix `ids b` of the two adapter tables (the
  table's word is the block index, and it is below 4). With the row function of the stored block and the
  arrays the region finds read back to the launch arrays, every stored block is the specification read
  through the block's rectangle; the 16 × 8 blocks tile the array, so the array ends at the specification.
-/
import proofs.«428571_j82291573391728_1_alg».proof.Defs
import proofs.«428571_j82291573391728_1_alg».proof.Proof.Gen.KernelIdeal.Frame
import proofs.«428571_j82291573391728_1_alg».proof.Proof.KernelRow
import proofs.«428571_j82291573391728_1_alg».proof.Proof.KernelHost
import Idealize.ShloMosaic.Lib.Pipeline.Value

set_option maxRecDepth 16384

noncomputable section

namespace Cert.KernelIdeal.BlockValue

open Cert.KernelIdeal Cert.KernelIdeal.Gen Cert.KernelIdeal.HostValue Cert.KernelIdeal.RowValue
open Idealize.ShloMosaic Idealize.ShloMosaic.TcCoe Idealize.ShloMosaic.Tactic Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The body's store -/

/-- The output's staging buffer after the body holds the body's one payload, of the input blocks it loaded whole. -/
theorem body_block (c : Dev nD) (i : grid0.Coords) (arg3 : Memref sig .tc .vmem S1x512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x16 .bf16) (harg6 : arg6.IsWhole) (arg7 : Memref sig .tc .vmem S16x1024 .bf16) (harg7 : arg7.IsWhole) (arg8 : Memref sig .tc .vmem S1x1024x16 .bf16) (harg8 : arg8.IsWhole) (arg9 : Memref sig .tc .vmem S1x16x1024 .bf16) (harg9 : arg9.IsWhole) (arg10 : Memref sig .tc .vmem S1024x16 .bf16) (harg10 : arg10.IsWhole) (arg11 : Memref sig .tc .vmem S16x1024 .bf16) (harg11 : arg11.IsWhole) (arg12 : Memref sig .tc .vmem S1x512x1024 .f32) (harg12 : arg12.IsWhole)
    (x0 : Vec Ideal S1x512x1024 .f32) (x1 : Vec Ideal S1024x1024 .bf16) (x2 : Vec Ideal S1x1024 .f32) (x3 : Vec Ideal S1024x16 .bf16) (x4 : Vec Ideal S16x1024 .bf16) (x5 : Vec Ideal S1x1024x16 .bf16) (x6 : Vec Ideal S1x16x1024 .bf16) (x7 : Vec Ideal S1024x16 .bf16) (x8 : Vec Ideal S16x1024 .bf16) (xt0 : TbBuf0 (F := Ideal) c tbM0_0) :
    out0_A_9 c i arg3 harg3 arg4 harg4 arg5 harg5 arg6 harg6 arg7 harg7 arg8 harg8 arg9 harg9 arg10 harg10 arg11 harg11 arg12 harg12 x0 x1 x2 x3 x4 x5 x6 x7 x8 xt0
      = k0_pay1 (k0_pay3 x0 x1 x2) (k0_pay4 x0 x3 x4 x5 x6 x7) x8 := by
  unfold out0_A_9
  rw [View.read_writes_eq_canon _ _ _ (cover0_A_9 c i arg3 harg3 arg4 harg4 arg5 harg5 arg6 harg6 arg7 harg7 arg8 harg8 arg9 harg9 arg10 harg10 arg11 harg11 arg12 harg12 x0 x1 x2 x3 x4 x5 x6 x7 x8 xt0)]
  unfold kernelRun0_A
  dsimp only
  sl_unfold_words
  rw [View.canon_unit_zero hz3]
  simp only [View.readAt_eq_ld, Memref.IsWhole.read_unread, View.ld_unit_zero (S := S1x512x1024) hz3,
    View.ld_unit_zero (S := S1024x1024) hz2, View.ld_unit_zero (S := S1x1024) hz2, View.ld_unit_zero (S := S1024x16) hz2,
    View.ld_unit_zero (S := S16x1024) hz2, View.ld_unit_zero (S := S1x1024x16) hz3, View.ld_unit_zero (S := S1x16x1024) hz3]

/-! ## The index maps at a grid point -/

/-- The `x` window's and the output window's block index at a point: (batch row, row tile, 0). -/
theorem tr_x (i : grid0.Coords) : cc0_transform_0 i = ![(i 0).val, (i 1).val, 0] := by
  have h0 : (i 0).val < 16 := (i 0).isLt
  have h1 : (i 1).val < 8 := (i 1).isLt
  unfold cc0_transform_0
  dsimp only
  rw [BitVec.toNat_ofNat, BitVec.toNat_ofNat, Nat.mod_eq_of_lt (by omega), Nat.mod_eq_of_lt (by omega)]
  rfl

theorem tr_out (i : grid0.Coords) : cc0_transform_9 i = ![(i 0).val, (i 1).val, 0] := by
  have h0 : (i 0).val < 16 := (i 0).isLt
  have h1 : (i 1).val < 8 := (i 1).isLt
  unfold cc0_transform_9
  dsimp only
  rw [BitVec.toNat_ofNat, BitVec.toNat_ofNat, Nat.mod_eq_of_lt (by omega), Nat.mod_eq_of_lt (by omega)]
  rfl

/-- The one index of a unit rectangle of the id table at offset b is index b. -/
theorem unit_idx (b : Fin 16) (off : Fin 1 → Nat) (hoff : off 0 = b.val) (inb : ∀ a, off a + S1.size a ≤ S16.size a) (h1 : 0 < S1.numel) :
    (Rect.unit (s := S16) off S1.size inb).emb (Shape.Idx.first h1) = ix1 b := by
  funext a
  apply Fin.ext
  match a with
  | ⟨0, _⟩ =>
    show off 0 + 1 * (Shape.Idx.first h1 (0 : Fin 1)).val = b.val
    have h0 : (Shape.Idx.first h1 (0 : Fin 1)).val = 0 := by
      have := (Shape.Idx.first h1 (0 : Fin 1)).isLt
      have e : S1.size (0 : Fin 1) = 1 := by decide
      omega
    rw [h0, hoff]; omega

/-- The word of the id table the adapter windows' index maps read at a point: the batch row's id. -/
theorem table_word (i : grid0.Coords) :
    (tbl m).at 0 (Rect.unit (s := S16) ![(Scalar.indexCast (BitVec.ofNat 32 (i 0).val)).toNat] S1.size (k0_off1_inb i)) numel1_S1
      = tbl m 0 (ix1 (i 0)) := by
  refine congrArg (tbl m 0) (unit_idx (i 0) _ ?_ _ _)
  have h0 : (i 0).val < 16 := (i 0).isLt
  show (BitVec.ofNat 32 (i 0).val).toNat = (i 0).val
  rw [BitVec.toNat_ofNat, Nat.mod_eq_of_lt (by omega)]

/-- The adapter windows' block index at a point: (the batch row's id, 0, 0). -/
theorem tr_a (i : grid0.Coords) : cc0_transform_5 k0_off1_inb numel1_S1 (tbl m) i = ![(tbl m 0 (ix1 (i 0))).toNat, 0, 0] := by
  unfold cc0_transform_5
  dsimp only
  rw [table_word]
  rfl

theorem tr_b (i : grid0.Coords) : cc0_transform_6 k0_off1_inb numel1_S1 (tbl m) i = ![(tbl m 0 (ix1 (i 0))).toNat, 0, 0] := by
  unfold cc0_transform_6
  dsimp only
  rw [table_word]
  rfl

/-! ## The input blocks, read at an index -/

/-- The blocks the body is handed at a point, at their literal types. -/
abbrev bX (hO : Ok m) (c : Dev nD) (t : Fin (cfgM m hO).N) : Vec Ideal S1x512x1024 .f32 := iblk m hO c 0 t
abbrev bBase (hO : Ok m) (c : Dev nD) (t : Fin (cfgM m hO).N) : Vec Ideal S1024x1024 .bf16 := iblk m hO c 1 t
abbrev bBias (hO : Ok m) (c : Dev nD) (t : Fin (cfgM m hO).N) : Vec Ideal S1x1024 .f32 := iblk m hO c 2 t
abbrev bT (hO : Ok m) (c : Dev nD) (t : Fin (cfgM m hO).N) : Vec Ideal S1024x16 .bf16 := iblk m hO c 3 t
abbrev bS (hO : Ok m) (c : Dev nD) (t : Fin (cfgM m hO).N) : Vec Ideal S16x1024 .bf16 := iblk m hO c 4 t
abbrev bA (hO : Ok m) (c : Dev nD) (t : Fin (cfgM m hO).N) : Vec Ideal S1x1024x16 .bf16 := iblk m hO c 5 t
abbrev bB (hO : Ok m) (c : Dev nD) (t : Fin (cfgM m hO).N) : Vec Ideal S1x16x1024 .bf16 := iblk m hO c 6 t
abbrev bQ (hO : Ok m) (c : Dev nD) (t : Fin (cfgM m hO).N) : Vec Ideal S1024x16 .bf16 := iblk m hO c 7 t
abbrev bP (hO : Ok m) (c : Dev nD) (t : Fin (cfgM m hO).N) : Vec Ideal S16x1024 .bf16 := iblk m hO c 8 t

/-- A point's batch row and row tile, and row p of that tile as a row of the array. -/
abbrev pb (t : Fin grid0.N) : Fin 16 := grid0.coords t 0
abbrev ps (t : Fin grid0.N) : Fin 8 := grid0.coords t 1
def rowOf (s : Fin 8) (p : Fin 512) : Fin 4096 := ⟨s.val * 512 + p.val, by have := s.isLt; have := p.isLt; omega⟩

theorem bX_apply (hO : Ok m) (c : Dev nD) (t : Fin (cfgM m hO).N) (u : Fin 1) (p : Fin 512) (k : Fin 1024) :
    bX m hO c t (ix3 u p k) = stX m c (ix3 (pb t) (rowOf (ps t) p) k) := by
  show V m c main_arg0 ((((cfgM m hO).win 0).blk t).view.emb (ix3 u p k)) = V m c main_arg0 _
  congr 1
  funext a; apply Fin.ext
  have e0 : cc0_transform_0 (grid0.coords t) (0 : Fin 3) = (grid0.coords t 0).val := by rw [tr_x]; rfl
  have e1 : cc0_transform_0 (grid0.coords t) (1 : Fin 3) = (grid0.coords t 1).val := by rw [tr_x]; rfl
  have e2 : cc0_transform_0 (grid0.coords t) (2 : Fin 3) = 0 := by rw [tr_x]; rfl
  have hu : u.val = 0 := by omega
  match a with
  | ⟨0, _⟩ => show cc0_transform_0 (grid0.coords t) (0 : Fin 3) * 1 + 1 * u.val = (grid0.coords t 0).val; rw [e0, hu]; omega
  | ⟨1, _⟩ => show cc0_transform_0 (grid0.coords t) (1 : Fin 3) * 512 + 1 * p.val = (grid0.coords t 1).val * 512 + p.val; rw [e1]; omega
  | ⟨2, _⟩ => show cc0_transform_0 (grid0.coords t) (2 : Fin 3) * 1024 + 1 * k.val = k.val; rw [e2]; omega

theorem bBase_apply (hO : Ok m) (c : Dev nD) (t : Fin (cfgM m hO).N) (y : S1024x1024.Idx) : bBase m hO c t y = stBase m c y := by
  show V m c main_v1 ((((cfgM m hO).win 1).blk t).view.emb y) = V m c main_v1 y
  congr 1
  funext a; apply Fin.ext
  match a with
  | ⟨0, _⟩ => show 0 * 1024 + 1 * (y 0).val = (y 0).val; omega
  | ⟨1, _⟩ => show 0 * 1024 + 1 * (y 1).val = (y 1).val; omega

theorem bBias_apply (hO : Ok m) (c : Dev nD) (t : Fin (cfgM m hO).N) (y : S1x1024.Idx) : bBias m hO c t y = stBias m c y := by
  show V m c main_v2 ((((cfgM m hO).win 2).blk t).view.emb y) = V m c main_v2 y
  congr 1
  funext a; apply Fin.ext
  match a with
  | ⟨0, _⟩ => show 0 * 1 + 1 * (y 0).val = (y 0).val; omega
  | ⟨1, _⟩ => show 0 * 1024 + 1 * (y 1).val = (y 1).val; omega

theorem bT_apply (hO : Ok m) (c : Dev nD) (t : Fin (cfgM m hO).N) (y : S1024x16.Idx) : bT m hO c t y = stT m c y := by
  show V m c main_v4 ((((cfgM m hO).win 3).blk t).view.emb y) = V m c main_v4 y
  congr 1
  funext a; apply Fin.ext
  match a with
  | ⟨0, _⟩ => show 0 * 1024 + 1 * (y 0).val = (y 0).val; omega
  | ⟨1, _⟩ => show 0 * 16 + 1 * (y 1).val = (y 1).val; omega

theorem bS_apply (hO : Ok m) (c : Dev nD) (t : Fin (cfgM m hO).N) (y : S16x1024.Idx) : bS m hO c t y = stS m c y := by
  show V m c main_v6 ((((cfgM m hO).win 4).blk t).view.emb y) = V m c main_v6 y
  congr 1
  funext a; apply Fin.ext
  match a with
  | ⟨0, _⟩ => show 0 * 16 + 1 * (y 0).val = (y 0).val; omega
  | ⟨1, _⟩ => show 0 * 1024 + 1 * (y 1).val = (y 1).val; omega

theorem bQ_apply (hO : Ok m) (c : Dev nD) (t : Fin (cfgM m hO).N) (y : S1024x16.Idx) : bQ m hO c t y = stQ m c y := by
  show V m c main_v12 ((((cfgM m hO).win 7).blk t).view.emb y) = V m c main_v12 y
  congr 1
  funext a; apply Fin.ext
  match a with
  | ⟨0, _⟩ => show 0 * 1024 + 1 * (y 0).val = (y 0).val; omega
  | ⟨1, _⟩ => show 0 * 16 + 1 * (y 1).val = (y 1).val; omega

theorem bP_apply (hO : Ok m) (c : Dev nD) (t : Fin (cfgM m hO).N) (y : S16x1024.Idx) : bP m hO c t y = stP m c y := by
  show V m c main_v14 ((((cfgM m hO).win 8).blk t).view.emb y) = V m c main_v14 y
  congr 1
  funext a; apply Fin.ext
  match a with
  | ⟨0, _⟩ => show 0 * 16 + 1 * (y 0).val = (y 0).val; omega
  | ⟨1, _⟩ => show 0 * 1024 + 1 * (y 1).val = (y 1).val; omega

/-- The adapter blocks are matrix `id` of the staged adapter tables, `id` the batch row's word (below 4). -/
theorem bA_apply (hO : Ok m) (c : Dev nD) (t : Fin (cfgM m hO).N) (hlt : (tbl m 0 (ix1 (pb t))).toNat < 4)
    (u : Fin 1) (k : Fin 1024) (r : Fin 16) :
    bA m hO c t (ix3 u k r) = stA m c (ix3 ⟨(tbl m 0 (ix1 (pb t))).toNat, hlt⟩ k r) := by
  show V m c main_v8 ((((cfgM m hO).win 5).blk t).view.emb (ix3 u k r)) = V m c main_v8 _
  congr 1
  funext a; apply Fin.ext
  have e0 : cc0_transform_5 k0_off1_inb numel1_S1 (tbl m) (grid0.coords t) (0 : Fin 3) = (tbl m 0 (ix1 (pb t))).toNat := by rw [tr_a]; rfl
  have e1 : cc0_transform_5 k0_off1_inb numel1_S1 (tbl m) (grid0.coords t) (1 : Fin 3) = 0 := by rw [tr_a]; rfl
  have e2 : cc0_transform_5 k0_off1_inb numel1_S1 (tbl m) (grid0.coords t) (2 : Fin 3) = 0 := by rw [tr_a]; rfl
  have hu : u.val = 0 := by omega
  match a with
  | ⟨0, _⟩ => show cc0_transform_5 k0_off1_inb numel1_S1 (tbl m) (grid0.coords t) (0 : Fin 3) * 1 + 1 * u.val = (tbl m 0 (ix1 (pb t))).toNat; rw [e0, hu]; omega
  | ⟨1, _⟩ => show cc0_transform_5 k0_off1_inb numel1_S1 (tbl m) (grid0.coords t) (1 : Fin 3) * 1024 + 1 * k.val = k.val; rw [e1]; omega
  | ⟨2, _⟩ => show cc0_transform_5 k0_off1_inb numel1_S1 (tbl m) (grid0.coords t) (2 : Fin 3) * 16 + 1 * r.val = r.val; rw [e2]; omega

theorem bB_apply (hO : Ok m) (c : Dev nD) (t : Fin (cfgM m hO).N) (hlt : (tbl m 0 (ix1 (pb t))).toNat < 4)
    (u : Fin 1) (r : Fin 16) (o : Fin 1024) :
    bB m hO c t (ix3 u r o) = stB m c (ix3 ⟨(tbl m 0 (ix1 (pb t))).toNat, hlt⟩ r o) := by
  show V m c main_v10 ((((cfgM m hO).win 6).blk t).view.emb (ix3 u r o)) = V m c main_v10 _
  congr 1
  funext a; apply Fin.ext
  have e0 : cc0_transform_6 k0_off1_inb numel1_S1 (tbl m) (grid0.coords t) (0 : Fin 3) = (tbl m 0 (ix1 (pb t))).toNat := by rw [tr_b]; rfl
  have e1 : cc0_transform_6 k0_off1_inb numel1_S1 (tbl m) (grid0.coords t) (1 : Fin 3) = 0 := by rw [tr_b]; rfl
  have e2 : cc0_transform_6 k0_off1_inb numel1_S1 (tbl m) (grid0.coords t) (2 : Fin 3) = 0 := by rw [tr_b]; rfl
  have hu : u.val = 0 := by omega
  match a with
  | ⟨0, _⟩ => show cc0_transform_6 k0_off1_inb numel1_S1 (tbl m) (grid0.coords t) (0 : Fin 3) * 1 + 1 * u.val = (tbl m 0 (ix1 (pb t))).toNat; rw [e0, hu]; omega
  | ⟨1, _⟩ => show cc0_transform_6 k0_off1_inb numel1_S1 (tbl m) (grid0.coords t) (1 : Fin 3) * 16 + 1 * r.val = r.val; rw [e1]; omega
  | ⟨2, _⟩ => show cc0_transform_6 k0_off1_inb numel1_S1 (tbl m) (grid0.coords t) (2 : Fin 3) * 1024 + 1 * o.val = o.val; rw [e2]; omega

/-! ## The stored block is the specification read through the block -/

/-- The specification at the launch arrays. -/
abbrev spec (c : Dev nD) : FVec Ideal S16x4096x1024 .f32 :=
  RowChain.layer (Ideal.ofBits .f32 0x3F800000#32) (inX m c) (inBase m c) (inBias m c) (inT m c) (inS m c) (inA m c)
    (inB m c) (inQ m c) (inP m c) (inIds m c)

/-- The row function at equal arguments. -/
theorem row_congr {s : EReal} {x x' : Fin 1024 → EReal} {W1 W1' : Fin 1024 → Fin 1024 → EReal} {b b' : Fin 1024 → EReal}
    {Wt Wt' : Fin 16 → Fin 1024 → EReal} {Ws Ws' : Fin 1024 → Fin 16 → EReal}
    {Wa Wa' : Fin 16 → Fin 1024 → EReal} {Wb Wb' : Fin 1024 → Fin 16 → EReal}
    {Wq Wq' : Fin 16 → Fin 1024 → EReal} {Wp Wp' : Fin 1024 → Fin 16 → EReal}
    (hx : x = x') (h1 : W1 = W1') (hb : b = b') (ht : Wt = Wt') (hs : Ws = Ws') (ha : Wa = Wa') (hbb : Wb = Wb')
    (hq : Wq = Wq') (hp : Wp = Wp') (q : Fin 1024) :
    RowChain.row s x W1 b Wt Ws Wa Wb Wq Wp q = RowChain.row s x' W1' b' Wt' Ws' Wa' Wb' Wq' Wp' q := by
  subst hx h1 hb ht hs ha hbb hq hp; rfl

/-- The id table the index maps read is the launch id array. -/
theorem tbl_eq (c : Dev nD) : tbl m 0 = inIds m c := (V_pre m c 0).symm.trans (V_main_arg9 m c)

/-- ENTRY (p, q) OF THE BLOCK STORED AT POINT t is the specification at (batch row, row p of the tile, q). -/
theorem stored_eq (hO : Ok m) (hlt : ∀ x : S16.Idx, (tbl m 0 x).toNat < 4) (c : Dev nD) (t : Fin (cfgM m hO).N)
    (u : Fin 1) (p : Fin 512) (q : Fin 1024) :
    k0_pay1 (k0_pay3 (bX m hO c t) (bBase m hO c t) (bBias m hO c t))
        (k0_pay4 (bX m hO c t) (bT m hO c t) (bS m hO c t) (bA m hO c t) (bB m hO c t) (bQ m hO c t)) (bP m hO c t) (ix3 u p q)
      = spec m c (ix3 (pb t) (rowOf (ps t) p) q) := by
  refine (stored_row _ _ _ _ _ _ _ _ _ u p q).trans ?_
  have hw : (inIds m c (ix1 (pb t))).toNat < 4 := by rw [← tbl_eq m c]; exact hlt _
  have hid : (⟨(tbl m 0 (ix1 (pb t))).toNat, hlt _⟩ : Fin 4) = RowChain.sel (inIds m c (ix1 (pb t))) :=
    Fin.ext (by rw [RowChain.sel_val _ hw, ← tbl_eq m c])
  show _ = RowChain.row _ (fun i => inX m c (ix3 (pb t) (rowOf (ps t) p) i)) (fun o i => inBase m c (ix2 o i))
    (fun o => inBias m c (ix1 o)) (fun t' i => inT m c (ix2 t' i)) (fun i t' => inS m c (ix2 i t'))
    (fun r i => inA m c (ix3 (RowChain.sel (inIds m c (ix1 (pb t)))) r i))
    (fun o r => inB m c (ix3 (RowChain.sel (inIds m c (ix1 (pb t)))) o r))
    (fun t' o => inQ m c (ix2 t' o)) (fun o t' => inP m c (ix2 o t')) q
  exact row_congr
    (funext fun k => (bX_apply m hO c t 0 p k).trans (congrFun (stX_eq m c) _))
    (funext fun o => funext fun k => (bBase_apply m hO c t (ix2 k o)).trans (stBase_apply m c k o))
    (funext fun o => (bBias_apply m hO c t (ix2 0 o)).trans (stBias_apply m c 0 o))
    (funext fun t' => funext fun k => (bT_apply m hO c t (ix2 k t')).trans (stT_apply m c k t'))
    (funext fun i => funext fun t' => (bS_apply m hO c t (ix2 t' i)).trans (stS_apply m c t' i))
    (funext fun r => funext fun k => (bA_apply m hO c t (hlt _) 0 k r).trans
      ((stA_apply m c _ k r).trans (congrArg (fun a => inA m c (ix3 a r k)) hid)))
    (funext fun o => funext fun r => (bB_apply m hO c t (hlt _) 0 r o).trans
      ((stB_apply m c _ r o).trans (congrArg (fun a => inB m c (ix3 a o r)) hid)))
    (funext fun t' => funext fun o => (bQ_apply m hO c t (ix2 o t')).trans (stQ_apply m c o t'))
    (funext fun o => funext fun t' => (bP_apply m hO c t (ix2 t' o)).trans (stP_apply m c t' o))
    q

/-- The stored block is the specification read through the output window's block at the point. -/
theorem stored_fun (hO : Ok m) (hlt : ∀ x : S16.Idx, (tbl m 0 x).toNat < 4) (c : Dev nD) (t : Fin (cfgM m hO).N)
    (y : S1x512x1024.Idx) :
    k0_pay1 (k0_pay3 (bX m hO c t) (bBase m hO c t) (bBias m hO c t))
        (k0_pay4 (bX m hO c t) (bT m hO c t) (bS m hO c t) (bA m hO c t) (bB m hO c t) (bQ m hO c t)) (bP m hO c t) y
      = spec m c ((((cfgM m hO).win 9).blk t).view.emb y) := by
  obtain ⟨u, p, q, rfl⟩ : ∃ (u : Fin 1) (p : Fin 512) (q : Fin 1024), y = ix3 u p q := ⟨y 0, y 1, y 2, eq_ix3 y⟩
  rw [stored_eq m hO hlt c t u p q]
  refine congrArg (spec m c) (funext fun a => Fin.ext ?_)
  have e0 : cc0_transform_9 (grid0.coords t) (0 : Fin 3) = (grid0.coords t 0).val := by rw [tr_out]; rfl
  have e1 : cc0_transform_9 (grid0.coords t) (1 : Fin 3) = (grid0.coords t 1).val := by rw [tr_out]; rfl
  have e2 : cc0_transform_9 (grid0.coords t) (2 : Fin 3) = 0 := by rw [tr_out]; rfl
  have hu : u.val = 0 := by omega
  match a with
  | ⟨0, _⟩ => show (grid0.coords t 0).val = cc0_transform_9 (grid0.coords t) (0 : Fin 3) * 1 + 1 * u.val; rw [e0, hu]; omega
  | ⟨1, _⟩ => show (grid0.coords t 1).val * 512 + p.val = cc0_transform_9 (grid0.coords t) (1 : Fin 3) * 512 + 1 * p.val; rw [e1]; omega
  | ⟨2, _⟩ => show q.val = cc0_transform_9 (grid0.coords t) (2 : Fin 3) * 1024 + 1 * q.val; rw [e2]; omega

/-- What the output's staging buffer holds after the body at point t. -/
theorem outs_eq (hO : Ok m) (c : Dev nD) (t : Fin (cfgM m hO).N) :
    outsAt0 m hO c t = k0_pay1 (k0_pay3 (bX m hO c t) (bBase m hO c t) (bBias m hO c t))
        (k0_pay4 (bX m hO c t) (bT m hO c t) (bS m hO c t) (bA m hO c t) (bB m hO c t) (bQ m hO c t)) (bP m hO c t) := by
  unfold outsAt0
  exact body_block c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0)

/-- WHAT POINT t WRITES BACK is the specification read through the point's block. -/
theorem flushed_eq (hO : Ok m) (hlt : ∀ x : S16.Idx, (tbl m 0 x).toNat < 4) (c : Dev nD) (t : Fin (cfgM m hO).N) :
    (dats m hO 0 c).flushed 9 t = (((cfgM m hO).win 9).blk t).view.read (Elt Ideal) (spec m c) := by
  show ((cfgM m hO).win 9).cut (grid0.coords t) ((dats m hO 0 c).after 9 t) = _
  rw [after0_9, outs_eq]
  exact funext fun y => stored_fun m hO hlt c t y

/-! ## The blocks tile the array -/

/-- Every (batch row, row tile) is some grid point's. -/
theorem point_onto : ∀ (b : Fin 16) (s : Fin 8), ∃ t : Fin grid0.N, (grid0.coords t 0).val = b.val ∧ (grid0.coords t 1).val = s.val := by
  decide +kernel

theorem mem_blk (hO : Ok m) (t : Fin (cfgM m hO).N) (i : S16x4096x1024.Idx) :
    i ∈ (((cfgM m hO).win 9).blk t).view.set ↔ ∀ a : Fin 3, cc0_transform_9 (grid0.coords t) a * S1x512x1024.size a ≤ (i a).val
      ∧ (i a).val < cc0_transform_9 (grid0.coords t) a * S1x512x1024.size a + S1x512x1024.size a := by
  show i ∈ ((View.whole main_v15).slice (((cfgM m hO).win 9).rect t)).set ↔ _
  exact (Finset.ext_iff.mp (View.set_slice_whole main_v15 (((cfgM m hO).win 9).rect t)) i).trans
    (Rect.mem_set_unit.trans Iff.rfl)

theorem cover (hO : Ok m) (i : S16x4096x1024.Idx) :
    ∃ t : Fin (cfgM m hO).N, ((cfgM m hO).win 9).flush t = true ∧ i ∈ (((cfgM m hO).win 9).blk t).view.set := by
  have hi0 : (i 0).val < 16 := (i 0).isLt
  have hi1 : (i 1).val < 4096 := (i 1).isLt
  have hi2 : (i 2).val < 1024 := (i 2).isLt
  obtain ⟨t, h0, h1⟩ := point_onto ⟨(i 0).val, hi0⟩ ⟨(i 1).val / 512, by omega⟩
  have g0 : (grid0.coords t 0).val = (i 0).val := h0
  have g1 : (grid0.coords t 1).val = (i 1).val / 512 := h1
  refine ⟨t, flush0_9 (adm m hO) t, ?_⟩
  rw [mem_blk]
  have e0 : cc0_transform_9 (grid0.coords t) (0 : Fin 3) = (grid0.coords t 0).val := by rw [tr_out]; rfl
  have e1 : cc0_transform_9 (grid0.coords t) (1 : Fin 3) = (grid0.coords t 1).val := by rw [tr_out]; rfl
  have e2 : cc0_transform_9 (grid0.coords t) (2 : Fin 3) = 0 := by rw [tr_out]; rfl
  intro a
  match a with
  | ⟨0, _⟩ =>
    show cc0_transform_9 (grid0.coords t) (0 : Fin 3) * 1 ≤ (i 0).val ∧ (i 0).val < cc0_transform_9 (grid0.coords t) (0 : Fin 3) * 1 + 1
    rw [e0, g0]; omega
  | ⟨1, _⟩ =>
    show cc0_transform_9 (grid0.coords t) (1 : Fin 3) * 512 ≤ (i 1).val ∧ (i 1).val < cc0_transform_9 (grid0.coords t) (1 : Fin 3) * 512 + 512
    rw [e1, g1]; omega
  | ⟨2, _⟩ =>
    show cc0_transform_9 (grid0.coords t) (2 : Fin 3) * 1024 ≤ (i 2).val ∧ (i 2).val < cc0_transform_9 (grid0.coords t) (2 : Fin 3) * 1024 + 1024
    rw [e2]; omega

/-- THE RESULT ARRAY after the run is the specification. -/
theorem final (hO : Ok m) (hlt : ∀ x : S16.Idx, (tbl m 0 x).toNat < 4) (c : Dev nD) :
    (dats m hO 0 c).arrAt 9 (cfgM m hO).N = spec m c :=
  (dats m hO 0 c).arrAt_eq_of_cover 9 (spec m c) (fun t _ => flushed_eq m hO hlt c t) (cover m hO)

/-! ## The run -/

/-- Every weakly fair execution of the kernel program ends with the result array at the specification and the
    argument arrays as launched. -/
theorem run (hO : Ok m) (hlt : ∀ x : S16.Idx, (tbl m 0 x).toNat < 4) :
    θ_run defs (onTc (τ := τ) (main (F := Ideal))) ⟨m, fun _ => 0, ρ⟩ (fun r => ∀ c : Dev nD,
      r.2.mem ((c.tc : Thread nD τ).loc main_v15) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 9).trans (final m hO hlt c),
      ((h c).1 0).trans (((dats m hO 0 c).arrAt_in 0 rfl _).trans ((A_eq m hO c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c),
      ((h c).2 main_arg9 (by decide : main_arg9 ∈ Pipeline.restRefs sig spec0)).trans (V_main_arg9 m c)⟩)
    (run_main m ρ hO)

end Cert.KernelIdeal.BlockValue

end
-- ==== Proof.RefValue.lean ====
/-
  The reference's result, read row by row.

  The reference computes `out = (x · W_baseᵀ + bias) + ((((((x · W_tᵀ) · W_sᵀ) · W_a[ids]ᵀ) · W_b[ids]ᵀ) · W_qᵀ) · W_pᵀ) * 1.0`
  over `x : [16, 4096, 1024]`, every product a contraction of the last axis of its left operand, the two adapter
  tables gathered along their first axis at the ids. This file reads that result at an index `(b, s, o)` and finds
  `RowChain.row` at the data of row `(b, s)`: the input row, the shared weights, and the adapter matrices
  `W_a[ids b]`, `W_b[ids b]`.

  Three things are shown on the way.
  * The ids. The program wraps a negative id (`id < 0 ? id + 4 : id`) before it gathers, and the gather clamps its
    start index into `[0, 3]`. For an id word whose value is below 4 neither does anything: such a word is not
    negative as a signed integer, and it is already at most 3.
  * The gathers. With offset axes `[1, 2]`, the first operand axis collapsed and addressed by the start index, and
    the index vector on axis 1 of the `[16, 1]` start indices, result element `(b, r, i)` is the operand at
    `(start b, r, i)`.
  * The contractions. Each one, at `(b, s, c)`, is `∑ k, left (b, s, k) * right (c, k)` (or `right (b, c, k)` for a
    gathered table): `RowChain.apply` of the previous stage's row. The sums keep their order and their ranges, so
    the two sides agree term by term and no entry needs to be finite.
-/
import proofs.«428571_j82291573391728_1_alg».proof.Proof.Gen.ReferenceIdeal.Read
import proofs.«428571_j82291573391728_1_alg».proof.Proof.RowChain
import Idealize.ShloMosaic.PureOps.Dims
import Idealize.ShloMosaic.PureOps.ShapeOps
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
open scoped BigOperators

/-! ## The id words -/

/-- An id word below 4 is not negative as a signed integer, so the wrap of a negative index leaves it alone. -/
theorem wrap_id (w : BitVec 32) (h : w.toNat < 4) :
    Scalar.select (IntOp.cmpi .slt w 0#32) (IntOp.addi w 4#32) w = w := by
  have hs : w.slt 0#32 = false := by
    simp only [BitVec.slt, BitVec.toInt_eq_toNat_cond]
    simp
    omega
  unfold IntOp.cmpi
  simp only [hs]
  exact select_zero _ _

/-- Such a word read as a signed integer and then as a natural is its unsigned value. -/
theorem toInt_toNat_small (w : BitVec 32) (h : w.toNat < 4) : w.toInt.toNat = w.toNat := by
  rw [BitVec.toInt_eq_toNat_cond]
  have : 2 * w.toNat < 2 ^ 32 := by omega
  rw [if_pos this]
  rfl

/-! ## The index operand of the two gathers

Each gather's start indices are the wrapped ids laid out as a `[16, 1]` column; under the range hypothesis entry
`(b, 0)` is the id of row `b` itself. -/
theorem v10_apply (x9 : (⟨S16, .i32⟩ : BufTy).Contents (Elt Ideal)) (hids : ∀ k : Fin 16, (x9 (ix1 k)).toNat < 4) (b : Fin 16) :
    val_main_v10 (F := Ideal) x9 (ix1 b) = x9 (ix1 b) := by
  rw [val_main_v10_apply, val_main_v7_apply, val_main_v9_apply, val_main_v6_apply, val_main_v8_apply, val_main_c_apply, val_main_c_0_apply]
  exact wrap_id _ (hids b)

theorem v11_apply (x9 : (⟨S16, .i32⟩ : BufTy).Contents (Elt Ideal)) (hids : ∀ k : Fin 16, (x9 (ix1 k)).toNat < 4) (b : Fin 16) (z : Fin 1) :
    val_main_v11 (F := Ideal) x9 (ix2 b z) = x9 (ix1 b) := by
  rw [val_main_v11_apply]
  have e : idx_main_v11 (ix2 b z) = ix1 b := funext fun a => match a with | ⟨0, _⟩ => rfl
  rw [e]
  exact v10_apply x9 hids b

theorem v17_apply (x9 : (⟨S16, .i32⟩ : BufTy).Contents (Elt Ideal)) (hids : ∀ k : Fin 16, (x9 (ix1 k)).toNat < 4) (b : Fin 16) :
    val_main_v17 (F := Ideal) x9 (ix1 b) = x9 (ix1 b) := by
  rw [val_main_v17_apply, val_main_v14_apply, val_main_v16_apply, val_main_v13_apply, val_main_v15_apply, val_main_c_1_apply, val_main_c_2_apply]
  exact wrap_id _ (hids b)

theorem v18_apply (x9 : (⟨S16, .i32⟩ : BufTy).Contents (Elt Ideal)) (hids : ∀ k : Fin 16, (x9 (ix1 k)).toNat < 4) (b : Fin 16) (z : Fin 1) :
    val_main_v18 (F := Ideal) x9 (ix2 b z) = x9 (ix1 b) := by
  rw [val_main_v18_apply]
  have e : idx_main_v18 (ix2 b z) = ix1 b := funext fun a => match a with | ⟨0, _⟩ => rfl
  rw [e]
  exact v17_apply x9 hids b

/-! ## The two gathers read at an index -/

/-- The dimension numbers of the gather that reads `W_a[ids]`: operand `[4, 16, 1024]`, start indices `[16, 1]`. -/
abbrev G12 := gather_S4x16x1024_S16x1_S16x16x1024_12_0_n_n_0_1_1161024

/-- On the adapter axis (collapsed, the one the start index addresses) result index `(b, r, i)` reads the
    start index of row `b`, signed and clamped into `[0, 3]`. -/
theorem g12_ax0 (idx : IVec S16x1 32) (b : Fin 16) (r : Fin 16) (i : Fin 1024) :
    (G12.operandIdx (ix3 b r i) idx (0 : Fin 3)).val = min (idx (ix2 b 0)).toInt.toNat 3 := by
  show GatherDims.start _ _ _ _ + GatherDims.batchCoord _ _ _ + GatherDims.offCoord _ _ _ = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 3) ∈ G12.startIndexMap from List.mem_singleton.mpr rfl)]
  have hsi : G12.siIdx (ix3 b r i) ⟨List.idxOf (0 : Fin 3) G12.startIndexMap,
      List.idxOf_lt_length_iff.2 (List.mem_singleton.mpr rfl)⟩ = ix2 b 0 := by
    funext c; refine Fin.ext ?_
    match c with
    | ⟨0, _⟩ => rfl
    | ⟨1, _⟩ => rfl
  rw [hsi]
  rfl

/-- On the two offset axes the start is `0` and the offset coordinate is the result's own. -/
theorem g12_ax1 (idx : IVec S16x1 32) (b : Fin 16) (r : Fin 16) (i : Fin 1024) :
    (G12.operandIdx (ix3 b r i) idx (1 : Fin 3)).val = r.val := by
  show GatherDims.start _ _ _ _ + GatherDims.batchCoord _ _ _ + GatherDims.offCoord _ _ _ = _
  rw [GatherDims.batchCoord_eq_zero _ _ _ List.not_mem_nil]
  unfold GatherDims.start
  rw [dif_neg (show (1 : Fin 3) ∉ G12.startIndexMap by decide), Nat.add_zero, Nat.zero_add]
  unfold GatherDims.offCoord
  rw [dif_pos (show (1 : Fin 3) ∈ G12.sKept by decide)]
  rfl

theorem g12_ax2 (idx : IVec S16x1 32) (b : Fin 16) (r : Fin 16) (i : Fin 1024) :
    (G12.operandIdx (ix3 b r i) idx (2 : Fin 3)).val = i.val := by
  show GatherDims.start _ _ _ _ + GatherDims.batchCoord _ _ _ + GatherDims.offCoord _ _ _ = _
  rw [GatherDims.batchCoord_eq_zero _ _ _ List.not_mem_nil]
  unfold GatherDims.start
  rw [dif_neg (show (2 : Fin 3) ∉ G12.startIndexMap by decide), Nat.add_zero, Nat.zero_add]
  unfold GatherDims.offCoord
  rw [dif_pos (show (2 : Fin 3) ∈ G12.sKept by decide)]
  rfl

/-- `W_a[ids]` at `(b, r, i)` is `W_a` at the adapter row `b`'s id names. -/
theorem v12_apply (x5 : (⟨S4x16x1024, .f32⟩ : BufTy).Contents (Elt Ideal)) (x9 : (⟨S16, .i32⟩ : BufTy).Contents (Elt Ideal))
    (hids : ∀ k : Fin 16, (x9 (ix1 k)).toNat < 4) (b : Fin 16) (r : Fin 16) (i : Fin 1024) :
    val_main_v12 (F := Ideal) x5 x9 (ix3 b r i) = x5 (ix3 (RowChain.sel (x9 (ix1 b))) r i) := by
  unfold val_main_v12 Host.gather
  refine congrArg x5 (funext fun a => Fin.ext ?_)
  match a with
  | ⟨0, _⟩ =>
    refine (g12_ax0 _ b r i).trans ?_
    rw [v11_apply x9 hids b 0, toInt_toNat_small _ (hids b)]
    show _ = (RowChain.sel (x9 (ix1 b))).val
    rw [RowChain.sel_val _ (hids b)]
    have := hids b
    omega
  | ⟨1, _⟩ => exact g12_ax1 _ b r i
  | ⟨2, _⟩ => exact g12_ax2 _ b r i

/-- The dimension numbers of the gather that reads `W_b[ids]`: operand `[4, 1024, 16]`, start indices `[16, 1]`. -/
abbrev G19 := gather_S4x1024x16_S16x1_S16x1024x16_12_0_n_n_0_1_1102416

theorem g19_ax0 (idx : IVec S16x1 32) (b : Fin 16) (o : Fin 1024) (r : Fin 16) :
    (G19.operandIdx (ix3 b o r) idx (0 : Fin 3)).val = min (idx (ix2 b 0)).toInt.toNat 3 := by
  show GatherDims.start _ _ _ _ + GatherDims.batchCoord _ _ _ + GatherDims.offCoord _ _ _ = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 3) ∈ G19.startIndexMap from List.mem_singleton.mpr rfl)]
  have hsi : G19.siIdx (ix3 b o r) ⟨List.idxOf (0 : Fin 3) G19.startIndexMap,
      List.idxOf_lt_length_iff.2 (List.mem_singleton.mpr rfl)⟩ = ix2 b 0 := by
    funext c; refine Fin.ext ?_
    match c with
    | ⟨0, _⟩ => rfl
    | ⟨1, _⟩ => rfl
  rw [hsi]
  rfl

theorem g19_ax1 (idx : IVec S16x1 32) (b : Fin 16) (o : Fin 1024) (r : Fin 16) :
    (G19.operandIdx (ix3 b o r) idx (1 : Fin 3)).val = o.val := by
  show GatherDims.start _ _ _ _ + GatherDims.batchCoord _ _ _ + GatherDims.offCoord _ _ _ = _
  rw [GatherDims.batchCoord_eq_zero _ _ _ List.not_mem_nil]
  unfold GatherDims.start
  rw [dif_neg (show (1 : Fin 3) ∉ G19.startIndexMap by decide), Nat.add_zero, Nat.zero_add]
  unfold GatherDims.offCoord
  rw [dif_pos (show (1 : Fin 3) ∈ G19.sKept by decide)]
  rfl

theorem g19_ax2 (idx : IVec S16x1 32) (b : Fin 16) (o : Fin 1024) (r : Fin 16) :
    (G19.operandIdx (ix3 b o r) idx (2 : Fin 3)).val = r.val := by
  show GatherDims.start _ _ _ _ + GatherDims.batchCoord _ _ _ + GatherDims.offCoord _ _ _ = _
  rw [GatherDims.batchCoord_eq_zero _ _ _ List.not_mem_nil]
  unfold GatherDims.start
  rw [dif_neg (show (2 : Fin 3) ∉ G19.startIndexMap by decide), Nat.add_zero, Nat.zero_add]
  unfold GatherDims.offCoord
  rw [dif_pos (show (2 : Fin 3) ∈ G19.sKept by decide)]
  rfl

/-- `W_b[ids]` at `(b, o, r)` is `W_b` at the adapter row `b`'s id names. -/
theorem v19_apply (x6 : (⟨S4x1024x16, .f32⟩ : BufTy).Contents (Elt Ideal)) (x9 : (⟨S16, .i32⟩ : BufTy).Contents (Elt Ideal))
    (hids : ∀ k : Fin 16, (x9 (ix1 k)).toNat < 4) (b : Fin 16) (o : Fin 1024) (r : Fin 16) :
    val_main_v19 (F := Ideal) x6 x9 (ix3 b o r) = x6 (ix3 (RowChain.sel (x9 (ix1 b))) o r) := by
  unfold val_main_v19 Host.gather
  refine congrArg x6 (funext fun a => Fin.ext ?_)
  match a with
  | ⟨0, _⟩ =>
    refine (g19_ax0 _ b o r).trans ?_
    rw [v18_apply x9 hids b 0, toInt_toNat_small _ (hids b)]
    show _ = (RowChain.sel (x9 (ix1 b))).val
    rw [RowChain.sel_val _ (hids b)]
    have := hids b
    omega
  | ⟨1, _⟩ => exact g19_ax1 _ b o r
  | ⟨2, _⟩ => exact g19_ax2 _ b o r

/-! ## Where each contraction reads its operands

Every `dot_general` of the program contracts the last axis of its left operand; at result index `(b, s, c)` and
contraction coordinate `k` the left operand is read at `(b, s, k)` and the right one at `(c, k)` (a shared weight)
or `(b, c, k)` (a gathered one, batched over `b`). -/

section Indices
variable (b : Fin 16) (s : Fin 4096)

theorem lidx0 (o k : Fin 1024) : lidx_main_v0 (ix3 b s o) k = ix3 b s k :=
  funext fun a => match a with | ⟨0, _⟩ => rfl | ⟨1, _⟩ => rfl | ⟨2, _⟩ => rfl
theorem ridx0 (o k : Fin 1024) : ridx_main_v0 (ix3 b s o) k = ix2 o k :=
  funext fun a => match a with | ⟨0, _⟩ => rfl | ⟨1, _⟩ => rfl
theorem lidx4 (t : Fin 16) (k : Fin 1024) : lidx_main_v4 (ix3 b s t) k = ix3 b s k :=
  funext fun a => match a with | ⟨0, _⟩ => rfl | ⟨1, _⟩ => rfl | ⟨2, _⟩ => rfl
theorem ridx4 (t : Fin 16) (k : Fin 1024) : ridx_main_v4 (ix3 b s t) k = ix2 t k :=
  funext fun a => match a with | ⟨0, _⟩ => rfl | ⟨1, _⟩ => rfl
theorem lidx5 (o : Fin 1024) (k : Fin 16) : lidx_main_v5 (ix3 b s o) k = ix3 b s k :=
  funext fun a => match a with | ⟨0, _⟩ => rfl | ⟨1, _⟩ => rfl | ⟨2, _⟩ => rfl
theorem ridx5 (o : Fin 1024) (k : Fin 16) : ridx_main_v5 (ix3 b s o) k = ix2 o k :=
  funext fun a => match a with | ⟨0, _⟩ => rfl | ⟨1, _⟩ => rfl
theorem lidx20 (r : Fin 16) (k : Fin 1024) : lidx_main_v20 (ix3 b s r) k = ix3 b s k :=
  funext fun a => match a with | ⟨0, _⟩ => rfl | ⟨1, _⟩ => rfl | ⟨2, _⟩ => rfl
theorem ridx20 (r : Fin 16) (k : Fin 1024) : ridx_main_v20 (ix3 b s r) k = ix3 b r k :=
  funext fun a => match a with | ⟨0, _⟩ => rfl | ⟨1, _⟩ => rfl | ⟨2, _⟩ => rfl
theorem lidx21 (o : Fin 1024) (k : Fin 16) : lidx_main_v21 (ix3 b s o) k = ix3 b s k :=
  funext fun a => match a with | ⟨0, _⟩ => rfl | ⟨1, _⟩ => rfl | ⟨2, _⟩ => rfl
theorem ridx21 (o : Fin 1024) (k : Fin 16) : ridx_main_v21 (ix3 b s o) k = ix3 b o k :=
  funext fun a => match a with | ⟨0, _⟩ => rfl | ⟨1, _⟩ => rfl | ⟨2, _⟩ => rfl
theorem lidx22 (t : Fin 16) (k : Fin 1024) : lidx_main_v22 (ix3 b s t) k = ix3 b s k :=
  funext fun a => match a with | ⟨0, _⟩ => rfl | ⟨1, _⟩ => rfl | ⟨2, _⟩ => rfl
theorem ridx22 (t : Fin 16) (k : Fin 1024) : ridx_main_v22 (ix3 b s t) k = ix2 t k :=
  funext fun a => match a with | ⟨0, _⟩ => rfl | ⟨1, _⟩ => rfl
theorem lidx23 (o : Fin 1024) (k : Fin 16) : lidx_main_v23 (ix3 b s o) k = ix3 b s k :=
  funext fun a => match a with | ⟨0, _⟩ => rfl | ⟨1, _⟩ => rfl | ⟨2, _⟩ => rfl
theorem ridx23 (o : Fin 1024) (k : Fin 16) : ridx_main_v23 (ix3 b s o) k = ix2 o k :=
  funext fun a => match a with | ⟨0, _⟩ => rfl | ⟨1, _⟩ => rfl
/-- The bias, broadcast first to `[1, 1, 1024]` and then over rows, is read at the output column. -/
theorem idx12 (o : Fin 1024) : idx_main_v1 (idx_main_v2 (ix3 b s o)) = ix1 o :=
  funext fun a => match a with | ⟨0, _⟩ => rfl

end Indices

/-! ## The rows of the chain

Fix the input row `(b, s)`. `c1` … `c6` are the row vectors after one to six maps of the chain, written with
`RowChain.apply` exactly as `RowChain.row` nests them; each program stage read at `(b, s, ·)` is the matching row. -/

section Rows
variable (x0 : (⟨S16x4096x1024, .f32⟩ : BufTy).Contents (Elt Ideal)) (x1 : (⟨S1024x1024, .f32⟩ : BufTy).Contents (Elt Ideal)) (x2 : (⟨S1024, .f32⟩ : BufTy).Contents (Elt Ideal)) (x3 : (⟨S16x1024, .f32⟩ : BufTy).Contents (Elt Ideal)) (x4 : (⟨S1024x16, .f32⟩ : BufTy).Contents (Elt Ideal)) (x5 : (⟨S4x16x1024, .f32⟩ : BufTy).Contents (Elt Ideal)) (x6 : (⟨S4x1024x16, .f32⟩ : BufTy).Contents (Elt Ideal)) (x7 : (⟨S16x1024, .f32⟩ : BufTy).Contents (Elt Ideal)) (x8 : (⟨S1024x16, .f32⟩ : BufTy).Contents (Elt Ideal)) (x9 : (⟨S16, .i32⟩ : BufTy).Contents (Elt Ideal))
variable (b : Fin 16) (s : Fin 4096)

def c1 : Fin 16 → EReal := RowChain.apply (fun i => x0 (ix3 b s i)) (fun t i => x3 (ix2 t i))
def c2 : Fin 1024 → EReal := RowChain.apply (c1 x0 x3 b s) (fun i t => x4 (ix2 i t))
def c3 : Fin 16 → EReal :=
  RowChain.apply (c2 x0 x3 x4 b s) (fun r i => x5 (ix3 (RowChain.sel (x9 (ix1 b))) r i))
def c4 : Fin 1024 → EReal :=
  RowChain.apply (c3 x0 x3 x4 x5 x9 b s) (fun o r => x6 (ix3 (RowChain.sel (x9 (ix1 b))) o r))
def c5 : Fin 16 → EReal := RowChain.apply (c4 x0 x3 x4 x5 x6 x9 b s) (fun t o => x7 (ix2 t o))
def c6 : Fin 1024 → EReal := RowChain.apply (c5 x0 x3 x4 x5 x6 x7 x9 b s) (fun o t => x8 (ix2 o t))

theorem v4_row (t : Fin 16) : val_main_v4 (F := Ideal) x0 x3 (ix3 b s t) = c1 x0 x3 b s t := by
  rw [val_main_v4_apply]
  simp only [lidx4, ridx4]
  rfl

theorem v5_row (o : Fin 1024) : val_main_v5 (F := Ideal) x0 x3 x4 (ix3 b s o) = c2 x0 x3 x4 b s o := by
  rw [val_main_v5_apply]
  simp only [lidx5, ridx5, v4_row]
  rfl

variable (hids : ∀ k : Fin 16, (x9 (ix1 k)).toNat < 4)
include hids

theorem v20_row (r : Fin 16) : val_main_v20 (F := Ideal) x0 x3 x4 x5 x9 (ix3 b s r) = c3 x0 x3 x4 x5 x9 b s r := by
  rw [val_main_v20_apply]
  simp only [lidx20, ridx20, v5_row, v12_apply x5 x9 hids]
  rfl

theorem v21_row (o : Fin 1024) :
    val_main_v21 (F := Ideal) x0 x3 x4 x5 x6 x9 (ix3 b s o) = c4 x0 x3 x4 x5 x6 x9 b s o := by
  rw [val_main_v21_apply]
  simp only [lidx21, ridx21, v20_row x0 x3 x4 x5 x9 b s hids, v19_apply x6 x9 hids]
  rfl

theorem v22_row (t : Fin 16) :
    val_main_v22 (F := Ideal) x0 x3 x4 x5 x6 x7 x9 (ix3 b s t) = c5 x0 x3 x4 x5 x6 x7 x9 b s t := by
  rw [val_main_v22_apply]
  simp only [lidx22, ridx22, v21_row x0 x3 x4 x5 x6 x9 b s hids]
  rfl

theorem v23_row (o : Fin 1024) :
    val_main_v23 (F := Ideal) x0 x3 x4 x5 x6 x7 x8 x9 (ix3 b s o) = c6 x0 x3 x4 x5 x6 x7 x8 x9 b s o := by
  rw [val_main_v23_apply]
  simp only [lidx23, ridx23, v22_row x0 x3 x4 x5 x6 x7 x9 b s hids]
  rfl

omit hids in
/-- The base side: the full-rank map of the row plus the bias at the output column. -/
theorem v3_row (o : Fin 1024) :
    val_main_v3 (F := Ideal) x0 x1 x2 (ix3 b s o)
      = RowChain.apply (fun i => x0 (ix3 b s i)) (fun o i => x1 (ix2 o i)) o + x2 (ix1 o) := by
  rw [val_main_v3_apply, val_main_v0_apply, val_main_v2_apply, val_main_v1_apply, idx12]
  simp only [lidx0, ridx0]
  rfl

end Rows

/-! ## The result -/

/-- The reference's result is the layer, row by row: at `(b, s, o)` the base side is the full-rank map of row
    `(b, s)` plus the bias, the adapter side is the sixth row of the chain times the broadcast scale `1.0`, and the
    two are added, which is `RowChain.row` at the row's data. -/
theorem result_eq (x0 : (⟨S16x4096x1024, .f32⟩ : BufTy).Contents (Elt Ideal)) (x1 : (⟨S1024x1024, .f32⟩ : BufTy).Contents (Elt Ideal)) (x2 : (⟨S1024, .f32⟩ : BufTy).Contents (Elt Ideal)) (x3 : (⟨S16x1024, .f32⟩ : BufTy).Contents (Elt Ideal)) (x4 : (⟨S1024x16, .f32⟩ : BufTy).Contents (Elt Ideal)) (x5 : (⟨S4x16x1024, .f32⟩ : BufTy).Contents (Elt Ideal)) (x6 : (⟨S4x1024x16, .f32⟩ : BufTy).Contents (Elt Ideal)) (x7 : (⟨S16x1024, .f32⟩ : BufTy).Contents (Elt Ideal)) (x8 : (⟨S1024x16, .f32⟩ : BufTy).Contents (Elt Ideal)) (x9 : (⟨S16, .i32⟩ : BufTy).Contents (Elt Ideal))
    (hids : ∀ k : Fin 16, (x9 (ix1 k)).toNat < 4) :
    val_main_v26 (F := Ideal) x0 x1 x2 x3 x4 x5 x6 x7 x8 x9 = RowChain.layer (Ideal.ofBits .f32 0x3F800000#32) x0 x1 x2 x3 x4 x5 x6 x7 x8 x9 := by
  funext j
  obtain ⟨b, s, o, rfl⟩ : ∃ b s o, j = ix3 b s o := ⟨j 0, j 1, j 2, eq_ix3 j⟩
  rw [val_main_v26_apply, val_main_v25_apply, v3_row, v23_row x0 x3 x4 x5 x6 x7 x8 x9 b s hids, val_main_v24_apply,
    val_main_cst_apply]
  rfl

end Cert.ReferenceIdeal.RefValue

end
-- ==== Proof.lean ====
/-
  A layer applied to `x : f32[16, 4096, 1024]` row by row:

    out[b, s, :] = (x[b, s, :] · W_baseᵀ + bias)
                   + (((((x[b, s, :] · W_tᵀ) · W_sᵀ) · W_a[id_b]ᵀ) · W_b[id_b]ᵀ) · W_qᵀ) · W_pᵀ * 1,

  where `id_b = adapter_ids[b]` picks one of four adapter pairs. The kernel runs a 16 × 8 grid; point (b, s) takes
  rows 512·s … 512·s + 511 of batch row b, the six shared weights (transposed beforehand) and, through a table of
  ids its index maps read, the pair `id_b`; it forms the seven products one after the other and stores the block.
  The reference forms the same seven contractions on whole arrays, gathering the adapter pair per batch row.

  The precondition: every float input finite, and `0 ≤ adapter_ids < 4`. The second part is what makes the
  table-indexed blocks lie inside the adapter tables (the frames' side condition), and under it the reference's
  index wrap and the gather's clamp are the identity. The float part is not used: both programs compute the
  same sums of the same products in the same order (a change of float format is the identity on extended reals;
  a product into a zero accumulator is the plain sum), so the two results are equal entry by entry with no
  appeal to an algebraic law that could fail at an infinity.

  The pieces: `RowChain` states one output row as a function of one input row; `KernelRow` shows row p of the block
  the body stores is that function; `KernelHost` reads the arrays the region finds back to the launch arrays;
  `KernelBlock` reads the input blocks, tiles the array with the stored blocks and re-posts the frame run;
  `RefValue` reads the reference's term at an index; `IdsInRange`, `OkKernel`, `OkKernelIdeal` derive the
  frames' side condition from the precondition.
-/
import proofs.«428571_j82291573391728_1_alg».proof.Defs
import proofs.«428571_j82291573391728_1_alg».proof.Proof.Gen.Kernel
import proofs.«428571_j82291573391728_1_alg».proof.Proof.Gen.Kernel.Skeleton
import proofs.«428571_j82291573391728_1_alg».proof.Proof.Gen.Kernel.Launch
import proofs.«428571_j82291573391728_1_alg».proof.Proof.Gen.Kernel.Points
import proofs.«428571_j82291573391728_1_alg».proof.Proof.Gen.Kernel.Frame
import proofs.«428571_j82291573391728_1_alg».proof.Proof.Gen.KernelIdeal
import proofs.«428571_j82291573391728_1_alg».proof.Proof.Gen.KernelIdeal.Skeleton
import proofs.«428571_j82291573391728_1_alg».proof.Proof.Gen.KernelIdeal.Launch
import proofs.«428571_j82291573391728_1_alg».proof.Proof.Gen.KernelIdeal.Points
import proofs.«428571_j82291573391728_1_alg».proof.Proof.Gen.KernelIdeal.Frame
import proofs.«428571_j82291573391728_1_alg».proof.Proof.Gen.ReferenceIdeal
import proofs.«428571_j82291573391728_1_alg».proof.Proof.Gen.ReferenceIdeal.Run
import proofs.«428571_j82291573391728_1_alg».proof.Proof.Gen.ReferenceIdeal.Read
import proofs.«428571_j82291573391728_1_alg».proof.Proof.Gen.Pre_finite_inputs
import proofs.«428571_j82291573391728_1_alg».proof.Proof.OkKernel
import proofs.«428571_j82291573391728_1_alg».proof.Proof.OkKernelIdeal
import proofs.«428571_j82291573391728_1_alg».proof.Proof.KernelBlock
import proofs.«428571_j82291573391728_1_alg».proof.Proof.RefValue
import Idealize.ShloMosaic.Adequacy
import Idealize.ShloMosaic.Init

noncomputable section

namespace Cert.Proof

open Idealize.ShloMosaic Idealize.SL.Sem

/-- The word-level kernel's frame: the generated frame, its side condition from the id range. -/
theorem frame_k : Cert.frame_Kernel := fun m ρ h => Cert.Kernel.Gen.frame m ρ (Cert.Kernel.OkOfPre.ok_of_pre m h)

/-- The idealized kernel's frame, likewise. -/
theorem frame_ki : Cert.frame_KernelIdeal := fun m ρ h =>
  Cert.KernelIdeal.Gen.frame m ρ (Cert.KernelIdeal.OkOfPre.ok_of_pre m h)

/-- The reference's frame: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result array at the row-wise specification of the launch arrays: the
    kernel's blocks tile it, and the reference's term is it index by index. -/
theorem algebraic : Cert.algebraic_KernelIdeal_ReferenceIdeal := by
  intro m ρ m' ρ' hpre hagree
  refine ⟨fun c => Cert.KernelIdeal.BlockValue.spec m c,
    Cert.KernelIdeal.BlockValue.run m ρ (Cert.KernelIdeal.OkOfPre.ok_of_pre m hpre) (Cert.KernelIdeal.OkOfPre.tbl_lt m hpre), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2]
  exact (Cert.ReferenceIdeal.Read.val_main_v26_eq _ _ _ _ _ _ _ _ _ _).trans
    (Cert.ReferenceIdeal.RefValue.result_eq _ _ _ _ _ _ _ _ _ _ (Cert.KernelIdeal.OkOfPre.ids_lt m hpre c))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
